-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x64x64 : Shape := ⟨3, ![2, 64, 64]⟩
abbrev S64 : Shape := ⟨1, ![64]⟩
abbrev S1600000 : Shape := ⟨1, ![1600000]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_arg5 : FVec F S1600000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : FVec F S2x64x64 .f32) (main_arg3 : FVec F S64 .f32) (main_arg4 : FVec F S1600000 .f32) (main_arg5 : FVec F S1600000 .f32) (main_arg6 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2x64x64 .f32 := Host.absf main_arg2
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S2x64x64 : Shape := ⟨3, ![2, 64, 64]⟩
abbrev S64 : Shape := ⟨1, ![64]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S6400x64 : Shape := ⟨2, ![6400, 64]⟩
abbrev S6400x1 : Shape := ⟨2, ![6400, 1]⟩
abbrev S1x64x64 : Shape := ⟨3, ![1, 64, 64]⟩
abbrev S64x64 : Shape := ⟨2, ![64, 64]⟩
abbrev S1x64 : Shape := ⟨2, ![1, 64]⟩
abbrev S5000x64 : Shape := ⟨2, ![5000, 64]⟩

abbrev nBuf : Space → Nat
  | .hbm => 48
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x64x64, .f32⟩
  | .hbm, ⟨3, _⟩ => ⟨S64, .f32⟩
  | .hbm, ⟨4, _⟩ => ⟨S1600000, .f32⟩
  | .hbm, ⟨5, _⟩ => ⟨S1600000, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1600000x1, .f32⟩
  | .hbm, ⟨30, _⟩ => ⟨S1600000x1, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64x64, .f32⟩
  | .hbm, ⟨42, _⟩ => ⟨S64x64, .f32⟩
  | .hbm, ⟨43, _⟩ => ⟨S1x64x64, .f32⟩
  | .hbm, ⟨44, _⟩ => ⟨S64x64, .f32⟩
  | .hbm, ⟨45, _⟩ => ⟨S1x64, .f32⟩
  | .hbm, ⟨46, _⟩ => ⟨S100000x64, .f32⟩
  | .hbm, ⟨47, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x1, .f32⟩
  | .local _ .vmem, ⟨5, _⟩ => ⟨S6400x1, .f32⟩
  | .local _ .vmem, ⟨6, _⟩ => ⟨S6400x1, .f32⟩
  | .local _ .vmem, ⟨7, _⟩ => ⟨S6400x1, .f32⟩
  | .local _ .vmem, ⟨8, _⟩ => ⟨S6400x64, .f32⟩
  | .local _ .vmem, ⟨9, _⟩ => ⟨S6400x64, .f32⟩
  | .local _ .vmem, ⟨10, _⟩ => ⟨S6400x64, .f32⟩
  | .local _ .vmem, ⟨11, _⟩ => ⟨S6400x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem8_1 : DmaSem sig := 26

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x64 : S6400x1.Broadcasts S6400x64
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .f32 = 32 ∨ (Rect.block (s := S1600000x1) S6400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x1.size a ≤ S1600000x1.size a
  hwx0_3 : ∀ i : grid0.Coords, EltTy.bits .f32 = 32 ∨ (Rect.block (s := S1600000x1) S6400x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .f32 = 32 ∨ (Rect.block (s := S1600000x64) S6400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S6400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S6400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x64x64 : Shape := ⟨3, ![2, 64, 64]⟩
abbrev S64 : Shape := ⟨1, ![64]⟩
abbrev S1600000 : Shape := ⟨1, ![1600000]⟩
abbrev S2x1600000 : Shape := ⟨2, ![2, 1600000]⟩
abbrev S1x1600000 : Shape := ⟨2, ![1, 1600000]⟩
abbrev S1x64x64 : Shape := ⟨3, ![1, 64, 64]⟩
abbrev S64x64 : Shape := ⟨2, ![64, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x64x64, .f32⟩
  | .hbm, ⟨3, _⟩ => ⟨S64, .f32⟩
  | .hbm, ⟨4, _⟩ => ⟨S1600000, .f32⟩
  | .hbm, ⟨5, _⟩ => ⟨S1600000, .f32⟩
  | .hbm, ⟨6, _⟩ => ⟨S2x1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1x64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S100000x64, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_7 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelGlue.lean ====
/-
  The host operations around the two kernel regions, read back as terms of the argument arrays.

  Before the first region the program slices the edge list into its source row and its neighbour row, wraps negative
  neighbour indices by the node count, gathers one row of each node table per edge, and reshapes the two edge-weight
  vectors into columns. Between the regions it scatter-adds each message array into a zero array by source index,
  slices the two weight matrices out of the weight tensor, and reshapes the bias into a row. Every buffer a region
  reads is therefore one fixed term of the arguments; the buffers the first region writes hold that region's result
  arrays, whatever they are.
-/
import proofs.«172383_j26998164423390_1_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal.Gen
open Idealize.ShloMosaic Idealize.ShloMosaic.TcCoe Idealize.SL.Sem Idealize.ShloMosaic.StableHlo

/-! ## The host terms -/

/-- The source index of every edge, as the column the scatter reads: row 0 of the edge list. -/
def srcIdx (x6 : (⟨S2x1600000, .i32⟩ : BufTy).Contents (Elt Ideal)) : (⟨S1600000x1, .i32⟩ : BufTy).Contents (Elt Ideal) :=
  broadcastInDim S1600000x1 ![0] bcast_S1600000_S1600000x1_0
    (shapeCast S1600000 (extractStridedSlice S1x1600000 ![0, 0] x6 slices_S2x1600000_S1x1600000_0_0) shapeCasts_S1x1600000_S1600000)

/-- Row 1 of the edge list: the neighbour of every edge. -/
def dstRow (x6 : (⟨S2x1600000, .i32⟩ : BufTy).Contents (Elt Ideal)) : (⟨S1600000, .i32⟩ : BufTy).Contents (Elt Ideal) :=
  shapeCast S1600000 (extractStridedSlice S1x1600000 ![1, 0] x6 slices_S2x1600000_S1x1600000_1_0) shapeCasts_S1x1600000_S1600000

/-- The neighbour index the gather reads: a negative index is moved up by the node count, then the row becomes a column. -/
def dstIdx (x6 : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (dstRow x6) (broadcastInDim S1600000 ![] bcast_S_S1600000 (constantI S_ 32 0#32)))
      (addi (dstRow x6) (broadcastInDim S1600000 ![] bcast_S_S1600000 (constantI S_ 32 100000#32))) (dstRow x6))

/-- One gathered row per edge. -/
def gathered (x : (⟨S100000x64, .f32⟩ : BufTy).Contents (Elt Ideal)) (x6 : (⟨S2x1600000, .i32⟩ : BufTy).Contents (Elt Ideal)) :
    (⟨S1600000x64, .f32⟩ : BufTy).Contents (Elt Ideal) :=
  Host.gather gather_S100000x64_S1600000x1_S1600000x64_1_0_n_n_0_1_164 x (dstIdx x6)

/-- An edge-weight vector as a column. -/
def column (x : (⟨S1600000, .f32⟩ : BufTy).Contents (Elt Ideal)) : (⟨S1600000x1, .f32⟩ : BufTy).Contents (Elt Ideal) :=
  shapeCast S1600000x1 x shapeCasts_S1600000_S1600000x1

/-- The per-node sums of a message array: scatter-add by source index into zeros. -/
def segSum (x6 : (⟨S2x1600000, .i32⟩ : BufTy).Contents (Elt Ideal)) (u : (⟨S1600000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32)) (srcIdx x6) u

/-- The first weight matrix. -/
def weight0 (x2 : (⟨S2x64x64, .f32⟩ : BufTy).Contents (Elt Ideal)) : (⟨S64x64, .f32⟩ : BufTy).Contents (Elt Ideal) :=
  shapeCast S64x64 (extractStridedSlice S1x64x64 ![0, 0, 0] x2 slices_S2x64x64_S1x64x64_0_0_0) shapeCasts_S1x64x64_S64x64

/-- The second weight matrix. -/
def weight1 (x2 : (⟨S2x64x64, .f32⟩ : BufTy).Contents (Elt Ideal)) : (⟨S64x64, .f32⟩ : BufTy).Contents (Elt Ideal) :=
  shapeCast S64x64 (extractStridedSlice S1x64x64 ![1, 0, 0] x2 slices_S2x64x64_S1x64x64_1_0_0) shapeCasts_S1x64x64_S64x64

/-- The bias as a row. -/
def biasRow (x3 : (⟨S64, .f32⟩ : BufTy).Contents (Elt Ideal)) : (⟨S1x64, .f32⟩ : BufTy).Contents (Elt Ideal) :=
  shapeCast S1x64 x3 shapeCasts_S64_S1x64

variable (m : (ℓ : Loc nD τ sig) → Buf (Elt Ideal) ℓ) (ρ : Dev nD → PrngReg)

/-! ## What the first region finds -/

theorem entry0_gatherRe (c : Dev nD) :
    V1 m ρ c main_v10 = gathered (m ((c : Thread nD τ).loc main_arg0)) (m ((c : Thread nD τ).loc main_arg6)) := by
  show StableHlo.after hostOps0 (W0 m ρ c) (Proc.devRef .tc main_v10) = _
  dsimp only [hostOps0]
  after_results
  rfl

theorem entry0_gatherIm (c : Dev nD) :
    V1 m ρ c main_v17 = gathered (m ((c : Thread nD τ).loc main_arg1)) (m ((c : Thread nD τ).loc main_arg6)) := by
  show StableHlo.after hostOps0 (W0 m ρ c) (Proc.devRef .tc main_v17) = _
  dsimp only [hostOps0]
  after_results
  rfl

theorem entry0_normRe (c : Dev nD) : V1 m ρ c main_v18 = column (m ((c : Thread nD τ).loc main_arg4)) := by
  show StableHlo.after hostOps0 (W0 m ρ c) (Proc.devRef .tc main_v18) = _
  dsimp only [hostOps0]
  after_results
  rfl

theorem entry0_normIm (c : Dev nD) : V1 m ρ c main_v19 = column (m ((c : Thread nD τ).loc main_arg5)) := by
  show StableHlo.after hostOps0 (W0 m ρ c) (Proc.devRef .tc main_v19) = _
  dsimp only [hostOps0]
  after_results
  rfl

/-! ## What the first region leaves, and what the second region finds -/

/-- The source row is computed before the first region and no region writes it. -/
theorem exit0_srcRow (c : Dev nD) :
    W2 m ρ c (Proc.devRef .tc main_v1)
      = shapeCast S1600000 (extractStridedSlice S1x1600000 ![0, 0] (m ((c : Thread nD τ).loc main_arg6)) slices_S2x1600000_S1x1600000_0_0)
          shapeCasts_S1x1600000_S1600000 := by
  refine (W2_of_ne m ρ c main_v1 (by decide)).trans ?_
  show StableHlo.after hostOps0 (W0 m ρ c) (Proc.devRef .tc main_v1) = _
  dsimp only [hostOps0]
  after_results
  rfl

/-- The weight tensor is an argument: nothing before the second region writes it. -/
theorem exit0_weight (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

/-- The bias is an argument: nothing before the second region writes it. -/
theorem exit0_bias (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]
  after_results

/-- The second region's first node table is the first argument as launched. -/
theorem entry1_xRe (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)

/-- The second region's second node table is the second argument as launched. -/
theorem entry1_xIm (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)

/-- The real aggregate the second region reads: the per-node sums of the first region's first result array. -/
theorem entry1_aggRe (c : Dev nD) :
    V3 m ρ c main_v23 = segSum (m ((c : Thread nD τ).loc main_arg6)) ((dat0 (V1 m ρ) c).arrAt 4 cfg0.N) := by
  show StableHlo.after hostOps1 (W2 m ρ c) (Proc.devRef .tc main_v23) = _
  dsimp only [hostOps1]
  after_results
  rw [exit0_srcRow m ρ c, show W2 m ρ c (Proc.devRef .tc main_v20_0) = (dat0 (V1 m ρ) c).arrAt 4 cfg0.N from W2_arr m ρ c 4]
  rfl

/-- The imaginary aggregate: the per-node sums of the first region's second result array. -/
theorem entry1_aggIm (c : Dev nD) :
    V3 m ρ c main_v26 = segSum (m ((c : Thread nD τ).loc main_arg6)) ((dat0 (V1 m ρ) c).arrAt 5 cfg0.N) := by
  show StableHlo.after hostOps1 (W2 m ρ c) (Proc.devRef .tc main_v26) = _
  dsimp only [hostOps1]
  after_results
  rw [exit0_srcRow m ρ c, show W2 m ρ c (Proc.devRef .tc main_v20_1) = (dat0 (V1 m ρ) c).arrAt 5 cfg0.N from W2_arr m ρ c 5]
  rfl

theorem entry1_weight0 (c : Dev nD) : V3 m ρ c main_v28 = weight0 (m ((c : Thread nD τ).loc main_arg2)) := by
  show StableHlo.after hostOps1 (W2 m ρ c) (Proc.devRef .tc main_v28) = _
  dsimp only [hostOps1]
  after_results
  rw [exit0_weight m ρ c]
  rfl

theorem entry1_weight1 (c : Dev nD) : V3 m ρ c main_v30 = weight1 (m ((c : Thread nD τ).loc main_arg2)) := by
  show StableHlo.after hostOps1 (W2 m ρ c) (Proc.devRef .tc main_v30) = _
  dsimp only [hostOps1]
  after_results
  rw [exit0_weight m ρ c]
  rfl

theorem entry1_bias (c : Dev nD) : V3 m ρ c main_v31 = biasRow (m ((c : Thread nD τ).loc main_arg3)) := by
  show StableHlo.after hostOps1 (W2 m ρ c) (Proc.devRef .tc main_v31) = _
  dsimp only [hostOps1]
  after_results
  rw [exit0_bias m ρ c]
  rfl

end Cert.KernelIdeal.Glue

end
-- ==== Proof.Spec.lean ====
/-
  The kernel's two stages as whole-array functions at the ideal values.

  Edge stage: every edge e carries a complex weight (nr e, ni e) and a gathered complex row (gx e ·, gi e ·); the
  message is their complex product, real part nr·gx − ni·gi and imaginary part nr·gi + ni·gx, feature by feature.

  Node stage: every node row is x·W0 + a·W1 + b, the two 64×64 products written as plain sums over the contracted
  coordinate and the bias row added last.
-/
import Idealize.ShloMosaic.PureOps.Ideal
import Idealize.ShloMosaic.Lib.ValueIdx

noncomputable section

open scoped BigOperators

namespace Cert.Spec

open Idealize.ShloMosaic Idealize.ShloMosaic.ValueIdx

/-- Edge rows by features. -/
abbrev SE64 : Shape := ⟨2, ![1600000, 64]⟩
/-- One weight per edge, as a column. -/
abbrev SE1 : Shape := ⟨2, ![1600000, 1]⟩
/-- Node rows by features. -/
abbrev SN64 : Shape := ⟨2, ![100000, 64]⟩
/-- A weight matrix. -/
abbrev SW : Shape := ⟨2, ![64, 64]⟩
/-- The bias as one row. -/
abbrev SB : Shape := ⟨2, ![1, 64]⟩

/-- Real part of the per-edge complex product: nr[e]·gx[e,f] − ni[e]·gi[e,f]. -/
def msgRe (gx gi : FVec Ideal SE64 .f32) (nr ni : FVec Ideal SE1 .f32) : FVec Ideal SE64 .f32 :=
  fun j => nr (ix2 (j 0) 0) * gx j - ni (ix2 (j 0) 0) * gi j

/-- Imaginary part of the per-edge complex product: nr[e]·gi[e,f] + ni[e]·gx[e,f]. -/
def msgIm (gx gi : FVec Ideal SE64 .f32) (nr ni : FVec Ideal SE1 .f32) : FVec Ideal SE64 .f32 :=
  fun j => nr (ix2 (j 0) 0) * gi j + ni (ix2 (j 0) 0) * gx j

/-- The node-wise transform: out[n,o] = (Σ_k x[n,k]·w0[k,o] + Σ_k a[n,k]·w1[k,o]) + b[0,o]. -/
def dense (x a : FVec Ideal SN64 .f32) (w0 w1 : FVec Ideal SW .f32) (b : FVec Ideal SB .f32) : FVec Ideal SN64 .f32 :=
  fun j => ((∑ k : Fin 64, x (ix2 (j 0) k) * w0 (ix2 k (j 1))) + ∑ k : Fin 64, a (ix2 (j 0) k) * w1 (ix2 k (j 1)))
    + b (ix2 0 (j 1))

theorem msgRe_apply (gx gi : FVec Ideal SE64 .f32) (nr ni : FVec Ideal SE1 .f32) (e : Fin 1600000) (f : Fin 64) :
    msgRe gx gi nr ni (ix2 e f) = nr (ix2 e 0) * gx (ix2 e f) - ni (ix2 e 0) * gi (ix2 e f) := rfl

theorem msgIm_apply (gx gi : FVec Ideal SE64 .f32) (nr ni : FVec Ideal SE1 .f32) (e : Fin 1600000) (f : Fin 64) :
    msgIm gx gi nr ni (ix2 e f) = nr (ix2 e 0) * gi (ix2 e f) + ni (ix2 e 0) * gx (ix2 e f) := rfl

theorem dense_apply (x a : FVec Ideal SN64 .f32) (w0 w1 : FVec Ideal SW .f32) (b : FVec Ideal SB .f32)
    (n : Fin 100000) (o : Fin 64) :
    dense x a w0 w1 b (ix2 n o)
      = ((∑ k : Fin 64, x (ix2 n k) * w0 (ix2 k o)) + ∑ k : Fin 64, a (ix2 n k) * w1 (ix2 k o)) + b (ix2 0 o) := rfl

end Cert.Spec

end
-- ==== Proof.KernelTerm.lean ====
/-
  The kernel's two results as terms of the argument arrays: the node-wise transform of a node table, of the per-node
  sums of the per-edge complex products of the gathered rows with the edge weights, of the two weight matrices and
  of the bias row. The real result reads the first node table and the real parts of the products, the imaginary
  result the second node table and the imaginary parts.
-/
import proofs.«172383_j26998164423390_1_alg».proof.Proof.KernelGlue
import proofs.«172383_j26998164423390_1_alg».proof.Proof.Spec

noncomputable section

namespace Cert.KernelIdeal.Term

open Cert.KernelIdeal.Glue Idealize.ShloMosaic

/-- The real result. -/
def outRe (x0 x1 : (⟨S100000x64, .f32⟩ : BufTy).Contents (Elt Ideal)) (x2 : (⟨S2x64x64, .f32⟩ : BufTy).Contents (Elt Ideal))
    (x3 : (⟨S64, .f32⟩ : BufTy).Contents (Elt Ideal)) (x4 x5 : (⟨S1600000, .f32⟩ : BufTy).Contents (Elt Ideal))
    (x6 : (⟨S2x1600000, .i32⟩ : BufTy).Contents (Elt Ideal)) : (⟨S100000x64, .f32⟩ : BufTy).Contents (Elt Ideal) :=
  Cert.Spec.dense x0 (segSum x6 (Cert.Spec.msgRe (gathered x0 x6) (gathered x1 x6) (column x4) (column x5)))
    (weight0 x2) (weight1 x2) (biasRow x3)

/-- The imaginary result. -/
def outIm (x0 x1 : (⟨S100000x64, .f32⟩ : BufTy).Contents (Elt Ideal)) (x2 : (⟨S2x64x64, .f32⟩ : BufTy).Contents (Elt Ideal))
    (x3 : (⟨S64, .f32⟩ : BufTy).Contents (Elt Ideal)) (x4 x5 : (⟨S1600000, .f32⟩ : BufTy).Contents (Elt Ideal))
    (x6 : (⟨S2x1600000, .i32⟩ : BufTy).Contents (Elt Ideal)) : (⟨S100000x64, .f32⟩ : BufTy).Contents (Elt Ideal) :=
  Cert.Spec.dense x1 (segSum x6 (Cert.Spec.msgIm (gathered x0 x6) (gathered x1 x6) (column x4) (column x5)))
    (weight0 x2) (weight1 x2) (biasRow x3)

end Cert.KernelIdeal.Term

end
-- ==== Proof.Region0Value.lean ====
/-
  The first kernel region, an edge-wise complex multiply, as a function of whole arrays.

  The region walks 250 grid points. At point t every window holds rows 6400·t … 6400·t + 6399 of its array: the two
  gathered feature arrays (64 columns), the two weight columns (one column), and the two result arrays (64 columns).
  On a block the body forms, row by row and feature by feature,
      re = wr·xr − wi·xi        im = wr·xi + wi·xr
  with the weight of a row spread over its 64 features. Each point writes its result blocks back, the 250 blocks tile
  the 1600000 rows, so each result array ends as the real, respectively imaginary, part of the per-edge product of the
  specification.
-/
import proofs.«172383_j26998164423390_1_alg».proof.Proof.Gen.KernelIdeal.Frame
import proofs.«172383_j26998164423390_1_alg».proof.Proof.Spec
import Idealize.ShloMosaic.Lib.Pipeline.Value
import Idealize.ShloMosaic.Lib.ValueIdx
import Idealize.ShloMosaic.PureOps.Ideal

noncomputable section

namespace Cert.KernelIdeal.R0Value

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The block geometry -/

/-- A whole-block access starts at row 0, column 0: the pair of zeros is the zero offset on both axes. -/
theorem zeroOffsets : (![0, 0] : Fin 2 → Nat) = fun _ => 0 := funext fun a => by fin_cases a <;> rfl

/-- At grid point t each of the six windows sits at block (t, 0): block row t, the only block column. Checked point by
    point over the 250 points. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The body on one block, entry by entry -/

/-- A weight column spread over the 64 features: entry (r, f) of the spread block is the column's entry (r, 0). The
    row axis has extent 6400 on both sides and is kept; the column axis has extent 1 in the operand and reads 0. -/
theorem weightSpread_apply (w : FVec Ideal S6400x1 .f32) (j : S6400x64.Idx) :
    broadcastTo S6400x64 w broadcasts_S6400x1_S6400x64 j = w (ix2 (j 0) 0) := by
  refine broadcastTo_apply w _ j (ix2 (j 0) 0) fun a => ?_
  match a with
  | ⟨0, _⟩ => rfl
  | ⟨1, _⟩ => rfl

/-- The real part on a block: entry j is wr[r]·xr[j] − wi[r]·xi[j], r the row of j. The reshapes keep the shape and
    are identities; product and difference act entry by entry; the spread weights read the row's weight. -/
theorem edgeRe_block (x0 x1 : Vec Ideal S6400x64 .f32) (x2 x3 : Vec Ideal S6400x1 .f32) (j : S6400x64.Idx) :
    k0_pay5 x0 x1 x2 x3 j = x2 (ix2 (j 0) 0) * x0 j - x3 (ix2 (j 0) 0) * x1 j := by
  unfold k0_pay5 k0_pay1 k0_pay2 k0_pay3 k0_pay4
  simp only [shapeCast_self]
  rw [subf_apply, mulf_apply, mulf_apply, weightSpread_apply, weightSpread_apply]

/-- The imaginary part on a block: entry j is wr[r]·xi[j] + wi[r]·xr[j], r the row of j, by the same three laws with
    a sum in place of the difference. -/
theorem edgeIm_block (x0 x1 : Vec Ideal S6400x64 .f32) (x2 x3 : Vec Ideal S6400x1 .f32) (j : S6400x64.Idx) :
    k0_pay6 x0 x1 x2 x3 j = x2 (ix2 (j 0) 0) * x1 j + x3 (ix2 (j 0) 0) * x0 j := by
  unfold k0_pay6 k0_pay1 k0_pay2 k0_pay3 k0_pay4
  simp only [shapeCast_self]
  rw [addf_apply, mulf_apply, mulf_apply, weightSpread_apply, weightSpread_apply]

/-! ## A block entry as an array entry

Entry j of a window's block at point t is the array's entry at row (block row)·6400 + 1·(row of j) and column
(block column)·(block width) + 1·(column of j); with the block at (t, 0) that is row 6400·t + (row of j), same column.
Stated for an array index k known only through its two coordinates. -/

variable (V : (c : Dev nD) → (b : Ref sig .tc) → Buf (Elt Ideal) ((c : Thread nD τ).loc b))

/-- The real gathered features: block entry j at point t is array entry (6400·t + row of j, column of j). -/
theorem featReBlock_at (c : Dev nD) (t : Fin cfg0.N) (j : S6400x64.Idx) (k : S1600000x64.Idx)
    (h0 : (k 0).val = 6400 * t.val + (j 0).val) (h1 : (k 1).val = (j 1).val) :
    (iblk0 V c 0 t : Vec Ideal S6400x64 .f32) j = (V c main_v10 : S1600000x64.Idx → Elt Ideal .f32) k := by
  obtain ⟨e0, e1, -⟩ := blockIndex t
  unfold iblk0
  rw [View.read_apply]
  show V c main_v10 (((cfg0.win 0).blk t).view.emb j) = V c main_v10 k
  congr 1
  funext a
  apply Fin.ext
  match a with
  | ⟨0, _⟩ => show win0_0.index t (0 : Fin 2) * 6400 + 1 * (j 0).val = (k 0).val; rw [e0, h0]; omega
  | ⟨1, _⟩ => show win0_0.index t (1 : Fin 2) * 64 + 1 * (j 1).val = (k 1).val; rw [e1, h1]; omega

/-- The imaginary gathered features, likewise. -/
theorem featImBlock_at (c : Dev nD) (t : Fin cfg0.N) (j : S6400x64.Idx) (k : S1600000x64.Idx)
    (h0 : (k 0).val = 6400 * t.val + (j 0).val) (h1 : (k 1).val = (j 1).val) :
    (iblk0 V c 1 t : Vec Ideal S6400x64 .f32) j = (V c main_v17 : S1600000x64.Idx → Elt Ideal .f32) k := by
  obtain ⟨-, -, e0, e1, -⟩ := blockIndex t
  unfold iblk0
  rw [View.read_apply]
  show V c main_v17 (((cfg0.win 1).blk t).view.emb j) = V c main_v17 k
  congr 1
  funext a
  apply Fin.ext
  match a with
  | ⟨0, _⟩ => show win0_1.index t (0 : Fin 2) * 6400 + 1 * (j 0).val = (k 0).val; rw [e0, h0]; omega
  | ⟨1, _⟩ => show win0_1.index t (1 : Fin 2) * 64 + 1 * (j 1).val = (k 1).val; rw [e1, h1]; omega

/-- The real weights: block entry j at point t is array entry (6400·t + row of j, 0); the one column leaves the
    column coordinate no choice on either side. -/
theorem weightReBlock_at (c : Dev nD) (t : Fin cfg0.N) (j : S6400x1.Idx) (k : S1600000x1.Idx)
    (h0 : (k 0).val = 6400 * t.val + (j 0).val) :
    (iblk0 V c 2 t : Vec Ideal S6400x1 .f32) j = (V c main_v18 : S1600000x1.Idx → Elt Ideal .f32) k := by
  obtain ⟨-, -, -, -, e0, e1, -⟩ := blockIndex t
  have hj : (j 1).val < 1 := (j 1).isLt
  have hk : (k 1).val < 1 := (k 1).isLt
  unfold iblk0
  rw [View.read_apply]
  show V c main_v18 (((cfg0.win 2).blk t).view.emb j) = V c main_v18 k
  congr 1
  funext a
  apply Fin.ext
  match a with
  | ⟨0, _⟩ => show win0_2.index t (0 : Fin 2) * 6400 + 1 * (j 0).val = (k 0).val; rw [e0, h0]; omega
  | ⟨1, _⟩ => show win0_2.index t (1 : Fin 2) * 1 + 1 * (j 1).val = (k 1).val; rw [e1]; omega

/-- The imaginary weights, likewise. -/
theorem weightImBlock_at (c : Dev nD) (t : Fin cfg0.N) (j : S6400x1.Idx) (k : S1600000x1.Idx)
    (h0 : (k 0).val = 6400 * t.val + (j 0).val) :
    (iblk0 V c 3 t : Vec Ideal S6400x1 .f32) j = (V c main_v19 : S1600000x1.Idx → Elt Ideal .f32) k := by
  obtain ⟨-, -, -, -, -, -, e0, e1, -⟩ := blockIndex t
  have hj : (j 1).val < 1 := (j 1).isLt
  have hk : (k 1).val < 1 := (k 1).isLt
  unfold iblk0
  rw [View.read_apply]
  show V c main_v19 (((cfg0.win 3).blk t).view.emb j) = V c main_v19 k
  congr 1
  funext a
  apply Fin.ext
  match a with
  | ⟨0, _⟩ => show win0_3.index t (0 : Fin 2) * 6400 + 1 * (j 0).val = (k 0).val; rw [e0, h0]; omega
  | ⟨1, _⟩ => show win0_3.index t (1 : Fin 2) * 1 + 1 * (j 1).val = (k 1).val; rw [e1]; omega

/-! ## The real part: what a point writes back, which rows it covers, the whole array -/

/-- Where entry j of the real-part block at point t lands in its array: row 6400·t + row of j, the same column. -/
theorem outReRow_at (t : Fin cfg0.N) (j : S6400x64.Idx) :
    ((((cfg0.win 4).blk t).view.emb j : S1600000x64.Idx) 0).val = 6400 * t.val + (j 0).val
    ∧ ((((cfg0.win 4).blk t).view.emb j : S1600000x64.Idx) 1).val = (j 1).val := by
  obtain ⟨-, -, -, -, -, -, -, -, e0, e1, -⟩ := blockIndex t
  constructor
  · show win0_4.index t (0 : Fin 2) * 6400 + 1 * (j 0).val = _; rw [e0]; omega
  · show win0_4.index t (1 : Fin 2) * 64 + 1 * (j 1).val = _; rw [e1]; omega

/-- What point t writes back to the real-part array is block t of the specification's real part. The body leaves one
    whole-block store of the real-part entries of the four loaded blocks; entry j of it is wr·xr − wi·xi at the block
    row of j, and each of the four block entries is the array entry in row 6400·t + row of j, which is the row the
    result entry lands in. -/
theorem flushedRe (c : Dev nD) (t : Fin cfg0.N) :
    (dat0 (F := Ideal) V c).flushed 4 t
      = ((cfg0.win 4).blk t).view.read (Elt Ideal)
          (Cert.Spec.msgRe (V c main_v10) (V c main_v17) (V c main_v18) (V c main_v19)) := by
  show (cfg0.win 4).cut (grid0.coords t) ((dat0 V c).after 4 t) = _
  rw [after0_4]
  unfold out0_4
  rw [View.canon_unit_zero zeroOffsets]
  simp only [View.ld_unit_zero (S := S6400x64) zeroOffsets, View.ld_unit_zero (S := S6400x1) zeroOffsets]
  funext j
  obtain ⟨r0, r1⟩ := outReRow_at t j
  show k0_pay5 (iblk0 V c 0 t) (iblk0 V c 1 t) (iblk0 V c 2 t) (iblk0 V c 3 t) j
    = Cert.Spec.msgRe (V c main_v10) (V c main_v17) (V c main_v18) (V c main_v19) (((cfg0.win 4).blk t).view.emb j)
  rw [edgeRe_block]
  unfold Cert.Spec.msgRe
  rw [featReBlock_at V c t j _ r0 r1, featImBlock_at V c t j _ r0 r1,
    weightReBlock_at V c t (ix2 (j 0) 0) (ix2 ((((cfg0.win 4).blk t).view.emb j : S1600000x64.Idx) 0) 0) r0,
    weightImBlock_at V c t (ix2 (j 0) 0) (ix2 ((((cfg0.win 4).blk t).view.emb j : S1600000x64.Idx) 0) 0) r0]

/-- An index of the real-part array lies in point t's block iff, on each axis, its coordinate lies in the block's
    range: from (block index)·(block extent), for one block extent. -/
theorem mem_outReBlock (t : Fin cfg0.N) (i : S1600000x64.Idx) :
    i ∈ ((cfg0.win 4).blk t).view.set
      ↔ ∀ a : Fin 2, win0_4.index t a * S6400x64.size a ≤ (i a).val
          ∧ (i a).val < win0_4.index t a * S6400x64.size a + S6400x64.size a := by
  show i ∈ ((View.whole main_v20_0).slice (win0_4.rect t)).set ↔ _
  rw [View.set_slice_whole, Rect.mem_set_unit]
  exact Iff.rfl

/-- Every index of the real-part array is in some point's block: row r belongs to point r / 6400 (r < 1600000 makes
    that a point of the grid), whose rows run from 6400·(r / 6400); the 64 columns are the block's 64. -/
theorem outRe_covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 250 := N_0
  have hlt : (i 0).val / 6400 < cfg0.N := by rw [hN]; omega
  obtain ⟨-, -, -, -, -, -, -, -, e0, e1, -⟩ := blockIndex ⟨(i 0).val / 6400, hlt⟩
  refine ⟨⟨(i 0).val / 6400, hlt⟩, flush0_4 _, ?_⟩
  rw [mem_outReBlock]
  intro a
  match a with
  | ⟨0, _⟩ =>
    show win0_4.index ⟨(i 0).val / 6400, hlt⟩ (0 : Fin 2) * 6400 ≤ (i 0).val
      ∧ (i 0).val < win0_4.index ⟨(i 0).val / 6400, hlt⟩ (0 : Fin 2) * 6400 + 6400
    rw [e0]
    show (i 0).val / 6400 * 6400 ≤ (i 0).val ∧ (i 0).val < (i 0).val / 6400 * 6400 + 6400
    omega
  | ⟨1, _⟩ =>
    show win0_4.index ⟨(i 0).val / 6400, hlt⟩ (1 : Fin 2) * 64 ≤ (i 1).val
      ∧ (i 1).val < win0_4.index ⟨(i 0).val / 6400, hlt⟩ (1 : Fin 2) * 64 + 64
    rw [e1]
    omega

/-- The real-part array after the region: every point writes block t of the specification's real part and the blocks
    cover the array, so the array is the real part of the per-edge product of the four arrays the region found. -/
theorem final0_4 (c : Dev nD) :
    (dat0 (F := Ideal) V c).arrAt 4 cfg0.N
      = Cert.Spec.msgRe (V c main_v10) (V c main_v17) (V c main_v18) (V c main_v19) :=
  (dat0 (F := Ideal) V c).arrAt_eq_of_cover 4
    (Cert.Spec.msgRe (V c main_v10) (V c main_v17) (V c main_v18) (V c main_v19))
    (fun t _ => flushedRe V c t) outRe_covered

/-! ## The imaginary part: the same three steps on the other result array -/

/-- Where entry j of the imaginary-part block at point t lands in its array: row 6400·t + row of j, same column. -/
theorem outImRow_at (t : Fin cfg0.N) (j : S6400x64.Idx) :
    ((((cfg0.win 5).blk t).view.emb j : S1600000x64.Idx) 0).val = 6400 * t.val + (j 0).val
    ∧ ((((cfg0.win 5).blk t).view.emb j : S1600000x64.Idx) 1).val = (j 1).val := by
  obtain ⟨-, -, -, -, -, -, -, -, -, -, e0, e1⟩ := blockIndex t
  constructor
  · show win0_5.index t (0 : Fin 2) * 6400 + 1 * (j 0).val = _; rw [e0]; omega
  · show win0_5.index t (1 : Fin 2) * 64 + 1 * (j 1).val = _; rw [e1]; omega

/-- What point t writes back to the imaginary-part array is block t of the specification's imaginary part: one
    whole-block store of wr·xi + wi·xr over the four loaded blocks, each block entry read in row 6400·t + row of j. -/
theorem flushedIm (c : Dev nD) (t : Fin cfg0.N) :
    (dat0 (F := Ideal) V c).flushed 5 t
      = ((cfg0.win 5).blk t).view.read (Elt Ideal)
          (Cert.Spec.msgIm (V c main_v10) (V c main_v17) (V c main_v18) (V c main_v19)) := by
  show (cfg0.win 5).cut (grid0.coords t) ((dat0 V c).after 5 t) = _
  rw [after0_5]
  unfold out0_5
  rw [View.canon_unit_zero zeroOffsets]
  simp only [View.ld_unit_zero (S := S6400x64) zeroOffsets, View.ld_unit_zero (S := S6400x1) zeroOffsets]
  funext j
  obtain ⟨r0, r1⟩ := outImRow_at t j
  show k0_pay6 (iblk0 V c 0 t) (iblk0 V c 1 t) (iblk0 V c 2 t) (iblk0 V c 3 t) j
    = Cert.Spec.msgIm (V c main_v10) (V c main_v17) (V c main_v18) (V c main_v19) (((cfg0.win 5).blk t).view.emb j)
  rw [edgeIm_block]
  unfold Cert.Spec.msgIm
  rw [featReBlock_at V c t j _ r0 r1, featImBlock_at V c t j _ r0 r1,
    weightReBlock_at V c t (ix2 (j 0) 0) (ix2 ((((cfg0.win 5).blk t).view.emb j : S1600000x64.Idx) 0) 0) r0,
    weightImBlock_at V c t (ix2 (j 0) 0) (ix2 ((((cfg0.win 5).blk t).view.emb j : S1600000x64.Idx) 0) 0) r0]

/-- Membership in point t's block of the imaginary-part array, axis by axis. -/
theorem mem_outImBlock (t : Fin cfg0.N) (i : S1600000x64.Idx) :
    i ∈ ((cfg0.win 5).blk t).view.set
      ↔ ∀ a : Fin 2, win0_5.index t a * S6400x64.size a ≤ (i a).val
          ∧ (i a).val < win0_5.index t a * S6400x64.size a + S6400x64.size a := by
  show i ∈ ((View.whole main_v20_1).slice (win0_5.rect t)).set ↔ _
  rw [View.set_slice_whole, Rect.mem_set_unit]
  exact Iff.rfl

/-- Every index of the imaginary-part array is in the block of point (its row) / 6400. -/
theorem outIm_covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 250 := N_0
  have hlt : (i 0).val / 6400 < cfg0.N := by rw [hN]; omega
  obtain ⟨-, -, -, -, -, -, -, -, -, -, e0, e1⟩ := blockIndex ⟨(i 0).val / 6400, hlt⟩
  refine ⟨⟨(i 0).val / 6400, hlt⟩, flush0_5 _, ?_⟩
  rw [mem_outImBlock]
  intro a
  match a with
  | ⟨0, _⟩ =>
    show win0_5.index ⟨(i 0).val / 6400, hlt⟩ (0 : Fin 2) * 6400 ≤ (i 0).val
      ∧ (i 0).val < win0_5.index ⟨(i 0).val / 6400, hlt⟩ (0 : Fin 2) * 6400 + 6400
    rw [e0]
    show (i 0).val / 6400 * 6400 ≤ (i 0).val ∧ (i 0).val < (i 0).val / 6400 * 6400 + 6400
    omega
  | ⟨1, _⟩ =>
    show win0_5.index ⟨(i 0).val / 6400, hlt⟩ (1 : Fin 2) * 64 ≤ (i 1).val
      ∧ (i 1).val < win0_5.index ⟨(i 0).val / 6400, hlt⟩ (1 : Fin 2) * 64 + 64
    rw [e1]
    omega

/-- The imaginary-part array after the region is the imaginary part of the per-edge product of the four arrays the
    region found. -/
theorem final0_5 (c : Dev nD) :
    (dat0 (F := Ideal) V c).arrAt 5 cfg0.N
      = Cert.Spec.msgIm (V c main_v10) (V c main_v17) (V c main_v18) (V c main_v19) :=
  (dat0 (F := Ideal) V c).arrAt_eq_of_cover 5
    (Cert.Spec.msgIm (V c main_v10) (V c main_v17) (V c main_v18) (V c main_v19))
    (fun t _ => flushedIm V c t) outIm_covered

end Cert.KernelIdeal.R0Value

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Region1Value.lean ====
/-
  The second kernel region as a whole-array function at the ideal values.

  The region walks the 100000 node rows in 20 blocks of 5000. At block t it reads rows 5000·t … 5000·t + 4999 of four
  node arrays, the two 64×64 weight matrices and the bias row whole, and writes rows 5000·t … of two result arrays:

      out[n, o] = (Σ_k x[n, k] · W0[k, o] + Σ_k a[n, k] · W1[k, o]) + b[0, o]

  once with (x, a) the first pair of node arrays and once with the second pair. Narrowing to the 16-bit format is the
  identity at the ideal values, a matrix product into the zero accumulator is the plain sum over the contracted
  coordinate, and broadcasting the bias row down the block reads the row at the column. So every written block is the
  matching block of the node-wise transform `Cert.Spec.dense`, and since the 20 row blocks cover every row, each
  result array ends as `Cert.Spec.dense` of the arrays the region found on entry.
-/
import proofs.«172383_j26998164423390_1_alg».proof.Proof.Gen.KernelIdeal.Frame
import proofs.«172383_j26998164423390_1_alg».proof.Proof.Spec
import proofs.«172383_j26998164423390_1_alg».proof.Proof.LibMatmulPlain
import Idealize.ShloMosaic.Lib.Pipeline.Value
import Idealize.ShloMosaic.Lib.ValueIdx
import Idealize.ShloMosaic.PureOps.Ideal

set_option maxRecDepth 16384

noncomputable section

open scoped BigOperators

namespace Cert.KernelIdeal.R1Value

open Cert.KernelIdeal Cert.KernelIdeal.Gen Idealize.ShloMosaic Idealize.ShloMosaic.TcCoe Idealize.SL.Sem
open Idealize.ShloMosaic.ValueIdx Cert.LibMatmulPlain
open Idealize.ShloMosaic.Pipeline (Dat Cfg Window)

/-! ## One block of the body, entry by entry -/

/-- The body's contraction — left operand contracted on its columns, right operand on its rows, no batch axes — is the
    plain product of a 5000×64 block by a 64×64 matrix. -/
theorem contraction_is_plain : dot_S5000x64_S64x64_S5000x64_1_0_0_1_n_n = DotDims.plain 5000 64 64 := rfl

/-- Entry (p, q) of the first result block: the two products' sums over the contracted coordinate k, added, plus the
    bias at column q. The narrowings and the same-shape casts drop out; each product into the zero accumulator is its
    plain sum; the broadcast bias row is read at row 0. -/
theorem first_block_apply (w0 w1 : Vec Ideal S64x64 .f32) (x a : Vec Ideal S5000x64 .f32) (b : Vec Ideal S1x64 .f32)
    (p : Fin 5000) (q : Fin 64) :
    k1_pay4 (F := Ideal) w0 w1 x a b (ix2 p q)
      = ((∑ k : Fin 64, x (ix2 p k) * w0 (ix2 k q)) + ∑ k : Fin 64, a (ix2 p k) * w1 (ix2 k q)) + b (ix2 0 q) := by
  unfold k1_pay4 k1_pay1 k1_pay2 k1_pay3
  simp only [shapeCast_self]
  rw [addf_apply, addf_apply, contraction_is_plain]
  refine congrArg₂ (· + ·) (congrArg₂ (· + ·) ((matmul_plain_zero_apply none _ _ p q).trans ?_)
    ((matmul_plain_zero_apply none _ _ p q).trans ?_)) (rowBroadcast_apply b _ p q)
  · rfl
  · rfl

/-- The second result block is the same function of its own pair of node blocks: the two stored values are one
    expression in different operands. -/
theorem second_block_same (w0 w1 : Vec Ideal S64x64 .f32) (x a : Vec Ideal S5000x64 .f32) (b : Vec Ideal S1x64 .f32) :
    k1_pay5 (F := Ideal) w0 w1 x a b = k1_pay4 (F := Ideal) w0 w1 x a b := rfl

/-- A result block against the node-wise transform: when row p of the two node blocks is row n of the arrays X and A,
    and the weight and bias blocks are the arrays W0, W1, B themselves (column q is all that is read), entry (p, q) of
    the block is entry (n, q) of the transform. Inside the sums the node blocks are read at (p, k), the weights at
    (k, q). -/
theorem block_is_dense (X A : FVec Ideal Cert.Spec.SN64 .f32) (W0 W1 : FVec Ideal Cert.Spec.SW .f32)
    (B : FVec Ideal Cert.Spec.SB .f32) (x a : Vec Ideal S5000x64 .f32) (w0 w1 : Vec Ideal S64x64 .f32)
    (b : Vec Ideal S1x64 .f32) (p : Fin 5000) (q : Fin 64) (n : Fin 100000)
    (hx : ∀ k : Fin 64, x (ix2 p k) = X (ix2 n k)) (ha : ∀ k : Fin 64, a (ix2 p k) = A (ix2 n k))
    (hw0 : ∀ k : Fin 64, w0 (ix2 k q) = W0 (ix2 k q)) (hw1 : ∀ k : Fin 64, w1 (ix2 k q) = W1 (ix2 k q))
    (hb : b (ix2 0 q) = B (ix2 0 q)) :
    k1_pay4 (F := Ideal) w0 w1 x a b (ix2 p q) = Cert.Spec.dense X A W0 W1 B (ix2 n q) := by
  rw [first_block_apply, Cert.Spec.dense_apply, hb]
  refine congrArg₂ (· + ·) (congrArg₂ (· + ·) ?_ ?_) rfl
  · exact Finset.sum_congr rfl fun k _ => by rw [hx, hw0]
  · exact Finset.sum_congr rfl fun k _ => by rw [ha, hw1]

/-! ## Where each window's block sits in its array -/

variable (V : (c : Dev nD) → (b : Ref sig .tc) → Buf (Elt Ideal) ((c : Thread nD τ).loc b))

/-- The whole-block rectangle's offsets are zero on both axes. -/
theorem zero_offsets : (![0, 0] : Fin 2 → Nat) = fun _ => 0 := funext fun a => by fin_cases a <;> rfl

/-- The block indices over the 20 grid points, decided once: the four node inputs and the two results are at block
    (t, 0) — row block t, the one column block —, the two weight matrices and the bias row at block (0, 0) throughout. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! A block's coordinate in its array is always block index × block size + the coordinate inside the block. For the
    node inputs that makes row p of block t row 5000·t + p of the array; for the blocks that are the whole array it is
    the same coordinate. -/

/-- Row p of the first node input's block at point t is row 5000·t + p of its array. -/
theorem rows_arg0 (c : Dev nD) (t : Fin cfg1.N) (p : Fin 5000) (k : Fin 64) (n : Fin 100000)
    (hn : n.val = t.val * 5000 + p.val) :
    (iblk1 V c 0 t : Vec Ideal S5000x64 .f32) (ix2 p k)
      = (V c main_arg0 : S100000x64.Idx → Elt Ideal .f32) (ix2 n k) := by
  obtain ⟨e0, e1, -⟩ := block_indices t
  show V c main_arg0 (((cfg1.win 0).blk t).view.emb (ix2 p k)) = V c main_arg0 (ix2 n k)
  refine congrArg _ (funext fun a => Fin.ext ?_)
  match a with
  | ⟨0, _⟩ => show win1_0.index t (0 : Fin 2) * 5000 + 1 * p.val = n.val; omega
  | ⟨1, _⟩ => show win1_0.index t (1 : Fin 2) * 64 + 1 * k.val = k.val; omega

/-- Row p of the second node input's block at point t is row 5000·t + p of its array. -/
theorem rows_arg1 (c : Dev nD) (t : Fin cfg1.N) (p : Fin 5000) (k : Fin 64) (n : Fin 100000)
    (hn : n.val = t.val * 5000 + p.val) :
    (iblk1 V c 1 t : Vec Ideal S5000x64 .f32) (ix2 p k)
      = (V c main_arg1 : S100000x64.Idx → Elt Ideal .f32) (ix2 n k) := by
  obtain ⟨-, -, e0, e1, -⟩ := block_indices t
  show V c main_arg1 (((cfg1.win 1).blk t).view.emb (ix2 p k)) = V c main_arg1 (ix2 n k)
  refine congrArg _ (funext fun a => Fin.ext ?_)
  match a with
  | ⟨0, _⟩ => show win1_1.index t (0 : Fin 2) * 5000 + 1 * p.val = n.val; omega
  | ⟨1, _⟩ => show win1_1.index t (1 : Fin 2) * 64 + 1 * k.val = k.val; omega

/-- Row p of the first aggregated input's block at point t is row 5000·t + p of its array. -/
theorem rows_v23 (c : Dev nD) (t : Fin cfg1.N) (p : Fin 5000) (k : Fin 64) (n : Fin 100000)
    (hn : n.val = t.val * 5000 + p.val) :
    (iblk1 V c 2 t : Vec Ideal S5000x64 .f32) (ix2 p k)
      = (V c main_v23 : S100000x64.Idx → Elt Ideal .f32) (ix2 n k) := by
  obtain ⟨-, -, -, -, e0, e1, -⟩ := block_indices t
  show V c main_v23 (((cfg1.win 2).blk t).view.emb (ix2 p k)) = V c main_v23 (ix2 n k)
  refine congrArg _ (funext fun a => Fin.ext ?_)
  match a with
  | ⟨0, _⟩ => show win1_2.index t (0 : Fin 2) * 5000 + 1 * p.val = n.val; omega
  | ⟨1, _⟩ => show win1_2.index t (1 : Fin 2) * 64 + 1 * k.val = k.val; omega

/-- Row p of the second aggregated input's block at point t is row 5000·t + p of its array. -/
theorem rows_v26 (c : Dev nD) (t : Fin cfg1.N) (p : Fin 5000) (k : Fin 64) (n : Fin 100000)
    (hn : n.val = t.val * 5000 + p.val) :
    (iblk1 V c 3 t : Vec Ideal S5000x64 .f32) (ix2 p k)
      = (V c main_v26 : S100000x64.Idx → Elt Ideal .f32) (ix2 n k) := by
  obtain ⟨-, -, -, -, -, -, e0, e1, -⟩ := block_indices t
  show V c main_v26 (((cfg1.win 3).blk t).view.emb (ix2 p k)) = V c main_v26 (ix2 n k)
  refine congrArg _ (funext fun a => Fin.ext ?_)
  match a with
  | ⟨0, _⟩ => show win1_3.index t (0 : Fin 2) * 5000 + 1 * p.val = n.val; omega
  | ⟨1, _⟩ => show win1_3.index t (1 : Fin 2) * 64 + 1 * k.val = k.val; omega

/-- The first weight matrix's block is the matrix itself at every point. -/
theorem weights_v28 (c : Dev nD) (t : Fin cfg1.N) (k : Fin 64) (q : Fin 64) :
    (iblk1 V c 4 t : Vec Ideal S64x64 .f32) (ix2 k q) = (V c main_v28 : S64x64.Idx → Elt Ideal .f32) (ix2 k q) := by
  obtain ⟨-, -, -, -, -, -, -, -, e0, e1, -⟩ := block_indices t
  show V c main_v28 (((cfg1.win 4).blk t).view.emb (ix2 k q)) = V c main_v28 (ix2 k q)
  refine congrArg _ (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- The second weight matrix's block is the matrix itself at every point. -/
theorem weights_v30 (c : Dev nD) (t : Fin cfg1.N) (k : Fin 64) (q : Fin 64) :
    (iblk1 V c 5 t : Vec Ideal S64x64 .f32) (ix2 k q) = (V c main_v30 : S64x64.Idx → Elt Ideal .f32) (ix2 k q) := by
  obtain ⟨-, -, -, -, -, -, -, -, -, -, e0, e1, -⟩ := block_indices t
  show V c main_v30 (((cfg1.win 5).blk t).view.emb (ix2 k q)) = V c main_v30 (ix2 k q)
  refine congrArg _ (funext fun a => Fin.ext ?_)
  match a with
  | ⟨0, _⟩ => show win1_5.index t (0 : Fin 2) * 64 + 1 * k.val = k.val; omega
  | ⟨1, _⟩ => show win1_5.index t (1 : Fin 2) * 64 + 1 * q.val = q.val; omega

/-- The bias row's block is the row itself at every point. -/
theorem bias_v31 (c : Dev nD) (t : Fin cfg1.N) (r : Fin 1) (q : Fin 64) :
    (iblk1 V c 6 t : Vec Ideal S1x64 .f32) (ix2 r q) = (V c main_v31 : S1x64.Idx → Elt Ideal .f32) (ix2 r q) := by
  obtain ⟨-, -, -, -, -, -, -, -, -, -, -, -, e0, e1, -⟩ := block_indices t
  show V c main_v31 (((cfg1.win 6).blk t).view.emb (ix2 r q)) = V c main_v31 (ix2 r q)
  refine congrArg _ (funext fun a => Fin.ext ?_)
  match a with
  | ⟨0, _⟩ => show win1_6.index t (0 : Fin 2) * 1 + 1 * r.val = r.val; omega
  | ⟨1, _⟩ => show win1_6.index t (1 : Fin 2) * 64 + 1 * q.val = q.val; omega

/-! ## The first result array -/

/-- What point t writes back to the first result array is rows 5000·t … of the transform of the first pair of node
    arrays: the body's one store covers the staging block, its loads read the whole input blocks, and entry (p, q) of
    the stored block is entry (5000·t + p, q) of the transform by `block_is_dense`, the input blocks read where the
    result's rectangle says. -/
theorem written7_eq (c : Dev nD) (t : Fin cfg1.N) :
    (dat1 (F := Ideal) V c).flushed 7 t = ((cfg1.win 7).blk t).view.read (Elt Ideal)
      (Cert.Spec.dense (V c main_arg0) (V c main_v23) (V c main_v28) (V c main_v30) (V c main_v31)) := by
  show (cfg1.win 7).cut (grid1.coords t) ((dat1 V c).after 7 t) = _
  rw [after1_7]
  unfold out1_7
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨-, -, -, -, -, -, -, -, -, -, -, -, -, -, e0, e1, -⟩ := block_indices t
  have hp : p.val < 5000 := p.isLt
  have ht : t.val < 20 := t.isLt
  have hemb : ((cfg1.win 7).blk t).view.emb (ix2 p q)
      = (ix2 (⟨t.val * 5000 + p.val, by omega⟩ : Fin 100000) q : S100000x64.Idx) := by
    funext a; apply Fin.ext
    match a with
    | ⟨0, _⟩ => show win1_7.index t (0 : Fin 2) * 5000 + 1 * p.val = t.val * 5000 + p.val; omega
    | ⟨1, _⟩ => show win1_7.index t (1 : Fin 2) * 64 + 1 * q.val = q.val; omega
  show k1_pay4 (F := Ideal) (iblk1 V c 4 t) (iblk1 V c 5 t) (iblk1 V c 0 t) (iblk1 V c 2 t) (iblk1 V c 6 t) (ix2 p q)
    = Cert.Spec.dense (V c main_arg0) (V c main_v23) (V c main_v28) (V c main_v30) (V c main_v31)
        (((cfg1.win 7).blk t).view.emb (ix2 p q))
  rw [hemb]
  exact block_is_dense _ _ _ _ _ _ _ _ _ _ p q _
    (fun k => rows_arg0 V c t p k _ rfl) (fun k => rows_v23 V c t p k _ rfl)
    (fun k => weights_v28 V c t k q) (fun k => weights_v30 V c t k q) (bias_v31 V c t 0 q)

/-- An index of the first result array is in point t's block iff each coordinate is in the block's range on its axis. -/
theorem mem_block7 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v32_0).slice (win1_7.rect t)).set ↔ _
  rw [View.set_slice_whole, Rect.mem_set_unit]
  exact Iff.rfl

/-- Every index of the first result array is written: row r lies in the block of point r / 5000, and every point
    writes back. -/
theorem covered7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hlt : (i 0).val / 5000 < 20 := by omega
  refine ⟨⟨(i 0).val / 5000, hlt⟩, flush1_7 _, ?_⟩
  rw [mem_block7]
  obtain ⟨-, -, -, -, -, -, -, -, -, -, -, -, -, -, e0, e1, -⟩ := block_indices ⟨(i 0).val / 5000, hlt⟩
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hlt⟩ (1 : Fin 2) * 64 ≤ (i 1).val
      ∧ (i 1).val < win1_7.index ⟨(i 0).val / 5000, hlt⟩ (1 : Fin 2) * 64 + 64
    rw [e1]
    omega

/-- The first result array after the region: the node-wise transform of the first pair of node arrays, the weights and
    the bias as the region found them. -/
theorem final1_7 (c : Dev nD) :
    (dat1 (F := Ideal) V c).arrAt 7 cfg1.N
      = Cert.Spec.dense (V c main_arg0) (V c main_v23) (V c main_v28) (V c main_v30) (V c main_v31) :=
  (dat1 (F := Ideal) V c).arrAt_eq_of_cover 7
    (Cert.Spec.dense (V c main_arg0) (V c main_v23) (V c main_v28) (V c main_v30) (V c main_v31))
    (fun t _ => written7_eq V c t) covered7

/-! ## The second result array: the same function of the second pair of node arrays -/

/-- What point t writes back to the second result array is rows 5000·t … of the transform of the second pair of node
    arrays. -/
theorem written8_eq (c : Dev nD) (t : Fin cfg1.N) :
    (dat1 (F := Ideal) V c).flushed 8 t = ((cfg1.win 8).blk t).view.read (Elt Ideal)
      (Cert.Spec.dense (V c main_arg1) (V c main_v26) (V c main_v28) (V c main_v30) (V c main_v31)) := by
  show (cfg1.win 8).cut (grid1.coords t) ((dat1 V c).after 8 t) = _
  rw [after1_8]
  unfold out1_8
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨-, -, -, -, -, -, -, -, -, -, -, -, -, -, -, -, e0, e1⟩ := block_indices t
  have hp : p.val < 5000 := p.isLt
  have ht : t.val < 20 := t.isLt
  have hemb : ((cfg1.win 8).blk t).view.emb (ix2 p q)
      = (ix2 (⟨t.val * 5000 + p.val, by omega⟩ : Fin 100000) q : S100000x64.Idx) := by
    funext a; apply Fin.ext
    match a with
    | ⟨0, _⟩ => show win1_8.index t (0 : Fin 2) * 5000 + 1 * p.val = t.val * 5000 + p.val; omega
    | ⟨1, _⟩ => show win1_8.index t (1 : Fin 2) * 64 + 1 * q.val = q.val; omega
  show k1_pay5 (F := Ideal) (iblk1 V c 4 t) (iblk1 V c 5 t) (iblk1 V c 1 t) (iblk1 V c 3 t) (iblk1 V c 6 t) (ix2 p q)
    = Cert.Spec.dense (V c main_arg1) (V c main_v26) (V c main_v28) (V c main_v30) (V c main_v31)
        (((cfg1.win 8).blk t).view.emb (ix2 p q))
  rw [hemb, second_block_same]
  exact block_is_dense _ _ _ _ _ _ _ _ _ _ p q _
    (fun k => rows_arg1 V c t p k _ rfl) (fun k => rows_v26 V c t p k _ rfl)
    (fun k => weights_v28 V c t k q) (fun k => weights_v30 V c t k q) (bias_v31 V c t 0 q)

/-- An index of the second result array is in point t's block iff each coordinate is in the block's range on its axis. -/
theorem mem_block8 (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v32_1).slice (win1_8.rect t)).set ↔ _
  rw [View.set_slice_whole, Rect.mem_set_unit]
  exact Iff.rfl

/-- Every index of the second result array is written, by the point its row's block belongs to. -/
theorem covered8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hlt : (i 0).val / 5000 < 20 := by omega
  refine ⟨⟨(i 0).val / 5000, hlt⟩, flush1_8 _, ?_⟩
  rw [mem_block8]
  obtain ⟨-, -, -, -, -, -, -, -, -, -, -, -, -, -, -, -, e0, e1⟩ := block_indices ⟨(i 0).val / 5000, hlt⟩
  intro a
  match a with
  | ⟨0, _⟩ =>
    show win1_8.index ⟨(i 0).val / 5000, hlt⟩ (0 : Fin 2) * 5000 ≤ (i 0).val
      ∧ (i 0).val < win1_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, hlt⟩ (1 : Fin 2) * 64 ≤ (i 1).val
      ∧ (i 1).val < win1_8.index ⟨(i 0).val / 5000, hlt⟩ (1 : Fin 2) * 64 + 64
    rw [e1]
    omega

/-- The second result array after the region: the node-wise transform of the second pair of node arrays, the weights
    and the bias as the region found them. -/
theorem final1_8 (c : Dev nD) :
    (dat1 (F := Ideal) V c).arrAt 8 cfg1.N
      = Cert.Spec.dense (V c main_arg1) (V c main_v26) (V c main_v28) (V c main_v30) (V c main_v31) :=
  (dat1 (F := Ideal) V c).arrAt_eq_of_cover 8
    (Cert.Spec.dense (V c main_arg1) (V c main_v26) (V c main_v28) (V c main_v30) (V c main_v31))
    (fun t _ => written8_eq V c t) covered8

end Cert.KernelIdeal.R1Value

end
-- ==== Proof.KernelValue.lean ====
/-
  The kernel program's run with its two result arrays named.

  The launch leaves each result array at what the second region's write-backs fold to. The second region's value is
  the node-wise transform of the arrays it found on entry; those are the argument node tables, the per-node sums of the
  first region's two result arrays, the two weight matrices and the bias row; the first region's value is the pair of
  per-edge complex products of the arrays IT found on entry, which are the gathered rows and the weight columns.
  Substituting from the last boundary back to the launch gives each result as one term of the arguments.
-/
import proofs.«172383_j26998164423390_1_alg».proof.Proof.KernelRun
import proofs.«172383_j26998164423390_1_alg».proof.Proof.KernelTerm
import proofs.«172383_j26998164423390_1_alg».proof.Proof.Region0Value
import proofs.«172383_j26998164423390_1_alg».proof.Proof.Region1Value

set_option maxRecDepth 16384

noncomputable section

namespace Cert.KernelIdeal.KValue

open Cert.KernelIdeal.Gen Cert.KernelIdeal.Glue Cert.KernelIdeal.Term
open Idealize.ShloMosaic Idealize.ShloMosaic.TcCoe Idealize.SL.Sem

variable (m : (ℓ : Loc nD τ sig) → Buf (Elt Ideal) ℓ) (ρ : Dev nD → PrngReg)

/-- The real result array after the run. -/
theorem result_re (c : Dev nD) :
    W4 m ρ c (Proc.devRef .tc main_v32_0)
      = outRe (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 7).trans ((Cert.KernelIdeal.R1Value.final1_7 (V3 m ρ) c).trans ?_)
  rw [entry1_xRe m ρ c, entry1_aggRe m ρ c, entry1_weight0 m ρ c, entry1_weight1 m ρ c, entry1_bias m ρ c,
    Cert.KernelIdeal.R0Value.final0_4 (V1 m ρ) c, entry0_gatherRe m ρ c, entry0_gatherIm m ρ c, entry0_normRe m ρ c,
    entry0_normIm m ρ c]
  rfl

/-- The imaginary result array after the run. -/
theorem result_im (c : Dev nD) :
    W4 m ρ c (Proc.devRef .tc main_v32_1)
      = outIm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W4_arr m ρ c 8).trans ((Cert.KernelIdeal.R1Value.final1_8 (V3 m ρ) c).trans ?_)
  rw [entry1_xIm m ρ c, entry1_aggIm m ρ c, entry1_weight0 m ρ c, entry1_weight1 m ρ c, entry1_bias m ρ c,
    Cert.KernelIdeal.R0Value.final0_5 (V1 m ρ) c, entry0_gatherRe m ρ c, entry0_gatherIm m ρ c, entry0_normRe m ρ c,
    entry0_normIm m ρ c]
  rfl

/-- Every weakly fair execution of the kernel program terminates with the two results at their terms of the arguments
    and the arguments unchanged. -/
theorem run : θ_run defs (onTc (τ := τ) (main (F := Ideal))) ⟨m, fun _ => 0, ρ⟩ (fun r => ∀ c : Dev nD,
      r.2.mem ((c.tc : Thread nD τ).loc main_v32_0)
        = outRe (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v32_1)
        = outIm (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans (result_re m ρ c), (h c).2.1.trans (result_im m ρ c), (h c).2.2⟩)
    (Cert.KernelIdeal.RunNamed.run_named m ρ)

end Cert.KernelIdeal.KValue

end
-- ==== Proof.RealSums.lean ====
/-
  Finite sums of real numbers inside the extended reals, and the two laws that join the kernel's arrangement of the
  complex product to the reference's.

  The reference sums each of the four real products n·g over an edge set separately, multiplies each sum by a weight
  matrix, and then subtracts (real part) or adds (imaginary part) the two products. The kernel subtracts or adds
  the two real products edge by edge first, sums once, and multiplies once. Over the real numbers the two are equal
  because summation and multiplication by a fixed weight are linear. On the extended reals linearity fails at the
  infinities, so the laws are stated for entries that are real numbers, written as coercions.
-/
import Mathlib.Data.EReal.Operations
import Mathlib.Algebra.BigOperators.Ring.Finset
import Mathlib.Tactic.Ring

open scoped BigOperators

namespace Cert.RealSums

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Real part. With S k the edges that land on the node entry k: summing n₁g₁ and n₂g₂ separately, weighting each
    by w and subtracting, is summing n₁g₁ − n₂g₂ once and weighting once. -/
theorem re_law {K J : Type*} [Fintype K] (S : K → Finset J) (a u w : K → ℝ) (n₁ g₁ n₂ g₂ : J → ℝ) (b : ℝ) :
    (((∑ k, (a k : EReal) * (u k : EReal)) + ∑ k, ((0 : EReal) + ∑ j ∈ S k, (n₁ j : EReal) * (g₁ j : EReal)) * (w k : EReal))
        - ∑ k, ((0 : EReal) + ∑ j ∈ S k, (n₂ j : EReal) * (g₂ j : EReal)) * (w k : EReal)) + (b : EReal)
    = ((∑ k, (a k : EReal) * (u k : EReal))
        + ∑ k, ((0 : EReal) + ∑ j ∈ S k, ((n₁ j : EReal) * (g₁ j : EReal) - (n₂ j : EReal) * (g₂ j : EReal))) * (w k : EReal))
      + (b : EReal) := by
  simp only [zero_add, ← EReal.coe_mul, ← EReal.coe_sub, ← coe_sum, ← EReal.coe_add]
  refine congrArg _ ?_
  simp only [Finset.sum_sub_distrib, sub_mul]
  ring

/-- Imaginary part: the same with a sum in place of the difference. -/
theorem im_law {K J : Type*} [Fintype K] (S : K → Finset J) (a u w : K → ℝ) (n₁ g₁ n₂ g₂ : J → ℝ) (b : ℝ) :
    (((∑ k, (a k : EReal) * (u k : EReal)) + ∑ k, ((0 : EReal) + ∑ j ∈ S k, (n₁ j : EReal) * (g₁ j : EReal)) * (w k : EReal))
        + ∑ k, ((0 : EReal) + ∑ j ∈ S k, (n₂ j : EReal) * (g₂ j : EReal)) * (w k : EReal)) + (b : EReal)
    = ((∑ k, (a k : EReal) * (u k : EReal))
        + ∑ k, ((0 : EReal) + ∑ j ∈ S k, ((n₁ j : EReal) * (g₁ j : EReal) + (n₂ j : EReal) * (g₂ j : EReal))) * (w k : EReal))
      + (b : EReal) := by
  simp only [zero_add, ← EReal.coe_mul, ← coe_sum, ← EReal.coe_add]
  refine congrArg _ ?_
  simp only [Finset.sum_add_distrib, add_mul]
  ring

end Cert.RealSums
-- ==== Proof.Bridge.lean ====
/-
  The reference's result terms are the kernel's, once every float argument holds real numbers.

  Both programs share the integer side: the source column, the wrapped neighbour column, hence which node row an
  edge gathers and which node entry an edge's message lands on. Over those the reference forms four real products
  n·g per edge entry, sums each over the edges landing on a node entry, multiplies each sum array by the second weight
  matrix, and combines: real = (x·W0 + P1·W1) − P2·W1 + b, imaginary = (x·W0 + P3·W1) + P4·W1 + b. The kernel combines
  the products edge by edge first (n₁g₁ − n₂g₂, respectively n₁g₁ + n₂g₂), sums once and multiplies once. Read at a
  node entry (n, o) both are finite sums of real numbers, equal by linearity of the sum and of the product with a fixed
  weight. The accumulating scatter is read at an entry as "operand plus the sum over the updates that land there";
  the set of those updates is never opened.
-/
import proofs.«172383_j26998164423390_1_alg».proof.Proof.KernelTerm
import proofs.«172383_j26998164423390_1_alg».proof.Proof.RealSums
import proofs.«172383_j26998164423390_1_alg».proof.Proof.Gen.ReferenceIdeal.Read
import Idealize.ShloMosaic.Lib.StackMember
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx
open Cert.KernelIdeal Cert.KernelIdeal.Gen Cert.KernelIdeal.Glue Cert.KernelIdeal.Term

/-- The update entries that land on entry p of the operand of an accumulating scatter. -/
def landingOf {s si su : Shape} (d : ScatterDims s si su) {w : Nat} (idx : IVec si w) (p : s.Idx) : Finset su.Idx :=
  Finset.univ.filter fun j => d.resultIdx? j idx = some p

/-- The accumulating scatter at an entry: the operand's entry plus the sum of the updates that land there. -/
theorem hostScatterAdd_apply {s si su : Shape} (d : ScatterDims s si su) {w : Nat} (x : s.Idx → EReal) (idx : IVec si w)
    (upd : su.Idx → EReal) (p : s.Idx) :
    Ideal.hostScatterAdd d x idx upd p = x p + ∑ j ∈ landingOf d idx p, upd j := rfl

/-- The accumulating scatter into an all-zero operand at an entry: zero plus the sum of the updates that land there. -/
theorem scatterAdd_zero_apply {s si su : Shape} {w : Nat} (d : ScatterDims s si su) (z : FVec Ideal s .f32)
    (hz : ∀ p, z p = 0) (idx : IVec si w) (u : FVec Ideal su .f32) (p : s.Idx) :
    Host.scatterAdd (F := Ideal) d z idx u p = 0 + ∑ j ∈ landingOf d idx p, u j := by
  show Ideal.hostScatterAdd d z idx u p = _
  rw [hostScatterAdd_apply, hz]

attribute [irreducible] landingOf

/-- The scatter's operand is the zero array. -/
theorem zeros_apply (p : S100000x64.Idx) :
    broadcastInDim S100000x64 ![] bcast_S_S100000x64 (constant (F := Ideal) S_ .f32 0x00000000#32) p = 0 :=
  Ideal.ofBits_zero_f32

/-- The per-node sum at an entry: zero plus the sum of the message entries that land there. -/
theorem segSum_apply (x6 : (⟨S2x1600000, .i32⟩ : BufTy).Contents (Elt Ideal)) (u : (⟨S1600000x64, .f32⟩ : BufTy).Contents (Elt Ideal))
    (p : S100000x64.Idx) :
    segSum x6 u p = 0 + ∑ j ∈ landingOf scatter_S100000x64_S1600000x1_S1600000x64_1_0_0_1 (srcIdx x6) p, u j :=
  scatterAdd_zero_apply _ _ zeros_apply (srcIdx x6) u p

theorem column_apply (x : (⟨S1600000, .f32⟩ : BufTy).Contents (Elt Ideal)) (e : Fin 1600000) :
    column x (ix2 e 0) = x (ix1 e) := by
  unfold column
  refine shapeCast_apply x _ (ix2 e 0) (ix1 e) ?_
  rw [Shape.rowMajor_val_one, Shape.rowMajor_val_two]
  show e.val = e.val * 1 + 0
  omega

section
variable (X0 X1 : S100000x64.Idx → ℝ) (X2 : S2x64x64.Idx → ℝ) (X3 : S64.Idx → ℝ) (X4 X5 : S1600000.Idx → ℝ)
  (x6 : (⟨S2x1600000, .i32⟩ : BufTy).Contents (Elt Ideal))

/-- The node row an edge's gathered row comes from. -/
def rowOf (j : S1600000x64.Idx) : S100000x64.Idx :=
  gather_S100000x64_S1600000x1_S1600000x64_1_0_n_n_0_1_164.operandIdx j (dstIdx x6)

/-- The first weight matrix of a real weight tensor. -/
def w0R : S64x64.Idx → ℝ :=
  shapeCast S64x64 (extractStridedSlice S1x64x64 ![0, 0, 0] X2 slices_S2x64x64_S1x64x64_0_0_0) shapeCasts_S1x64x64_S64x64
/-- The second weight matrix of a real weight tensor. -/
def w1R : S64x64.Idx → ℝ :=
  shapeCast S64x64 (extractStridedSlice S1x64x64 ![1, 0, 0] X2 slices_S2x64x64_S1x64x64_1_0_0) shapeCasts_S1x64x64_S64x64

theorem weight0_coe : weight0 (fun i => ((X2 i : ℝ) : EReal)) = fun q => ((w0R X2 q : ℝ) : EReal) := rfl
theorem weight1_coe : weight1 (fun i => ((X2 i : ℝ) : EReal)) = fun q => ((w1R X2 q : ℝ) : EReal) := rfl
theorem gathered_coe (X : S100000x64.Idx → ℝ) :
    gathered (fun i => ((X i : ℝ) : EReal)) x6 = fun j => ((X (rowOf x6 j) : ℝ) : EReal) := rfl

theorem biasRow_coe (o : Fin 64) : biasRow (fun i => ((X3 i : ℝ) : EReal)) (ix2 0 o) = ((X3 (ix1 o) : ℝ) : EReal) := by
  unfold biasRow
  refine shapeCast_apply (fun i => ((X3 i : ℝ) : EReal)) _ (ix2 0 o) (ix1 o) ?_
  rw [Shape.rowMajor_val_one, Shape.rowMajor_val_two]
  show o.val = 0 * 64 + o.val
  omega

/-- The reference's first product array: the weight of the edge's row times the gathered entry. -/
theorem ref_v18 : Cert.ReferenceIdeal.Read.val_main_v18 (F := Ideal) (fun i => ((X0 i : ℝ) : EReal)) (fun i => ((X4 i : ℝ) : EReal)) x6
    = fun j => ((X4 (ix1 (j 0)) : ℝ) : EReal) * ((X0 (rowOf x6 j) : ℝ) : EReal) := by
  funext j
  rw [Cert.ReferenceIdeal.Read.val_main_v18_apply, Cert.ReferenceIdeal.Read.val_main_v17_apply, Cert.ReferenceIdeal.Read.val_main_v9_apply]
  have e : Cert.ReferenceIdeal.Read.idx_main_v9 (Cert.ReferenceIdeal.Read.idx_main_v17 j) = ix1 (j 0) :=
    funext fun a => by match a with | ⟨0, _⟩ => rfl
  rw [e]
  rfl
end

section
variable (X0 X1 : S100000x64.Idx → ℝ) (X2 : S2x64x64.Idx → ℝ) (X3 : S64.Idx → ℝ) (X4 X5 : S1600000.Idx → ℝ)
  (x6 : (⟨S2x1600000, .i32⟩ : BufTy).Contents (Elt Ideal))

theorem ref_v33 : Cert.ReferenceIdeal.Read.val_main_v33 (F := Ideal) (fun i => ((X1 i : ℝ) : EReal)) (fun i => ((X5 i : ℝ) : EReal)) x6
    = fun j => ((X5 (ix1 (j 0)) : ℝ) : EReal) * ((X1 (rowOf x6 j) : ℝ) : EReal) := by
  funext j
  rw [Cert.ReferenceIdeal.Read.val_main_v33_apply, Cert.ReferenceIdeal.Read.val_main_v32_apply, Cert.ReferenceIdeal.Read.val_main_v24_apply]
  have e : Cert.ReferenceIdeal.Read.idx_main_v24 (Cert.ReferenceIdeal.Read.idx_main_v32 j) = ix1 (j 0) :=
    funext fun a => by match a with | ⟨0, _⟩ => rfl
  rw [e]
  rfl

theorem ref_v48 : Cert.ReferenceIdeal.Read.val_main_v48 (F := Ideal) (fun i => ((X1 i : ℝ) : EReal)) (fun i => ((X4 i : ℝ) : EReal)) x6
    = fun j => ((X4 (ix1 (j 0)) : ℝ) : EReal) * ((X1 (rowOf x6 j) : ℝ) : EReal) := by
  funext j
  rw [Cert.ReferenceIdeal.Read.val_main_v48_apply, Cert.ReferenceIdeal.Read.val_main_v47_apply, Cert.ReferenceIdeal.Read.val_main_v39_apply]
  have e : Cert.ReferenceIdeal.Read.idx_main_v39 (Cert.ReferenceIdeal.Read.idx_main_v47 j) = ix1 (j 0) :=
    funext fun a => by match a with | ⟨0, _⟩ => rfl
  rw [e]
  rfl

theorem ref_v63 : Cert.ReferenceIdeal.Read.val_main_v63 (F := Ideal) (fun i => ((X0 i : ℝ) : EReal)) (fun i => ((X5 i : ℝ) : EReal)) x6
    = fun j => ((X5 (ix1 (j 0)) : ℝ) : EReal) * ((X0 (rowOf x6 j) : ℝ) : EReal) := by
  funext j
  rw [Cert.ReferenceIdeal.Read.val_main_v63_apply, Cert.ReferenceIdeal.Read.val_main_v62_apply, Cert.ReferenceIdeal.Read.val_main_v54_apply]
  have e : Cert.ReferenceIdeal.Read.idx_main_v54 (Cert.ReferenceIdeal.Read.idx_main_v62 j) = ix1 (j 0) :=
    funext fun a => by match a with | ⟨0, _⟩ => rfl
  rw [e]
  rfl

/-- The reference's bias term at an entry is the bias at the entry's column. -/
theorem ref_bias70 (n : Fin 100000) (o : Fin 64) :
    Cert.ReferenceIdeal.Read.val_main_v70 (F := Ideal) (fun i => ((X3 i : ℝ) : EReal)) (ix2 n o) = ((X3 (ix1 o) : ℝ) : EReal) := by
  rw [Cert.ReferenceIdeal.Read.val_main_v70_apply, Cert.ReferenceIdeal.Read.val_main_v69_apply]
  have e : Cert.ReferenceIdeal.Read.idx_main_v69 (Cert.ReferenceIdeal.Read.idx_main_v70 (ix2 n o)) = ix1 o :=
    funext fun a => by match a with | ⟨0, _⟩ => rfl
  rw [e]

theorem ref_bias74 (n : Fin 100000) (o : Fin 64) :
    Cert.ReferenceIdeal.Read.val_main_v74 (F := Ideal) (fun i => ((X3 i : ℝ) : EReal)) (ix2 n o) = ((X3 (ix1 o) : ℝ) : EReal) := by
  rw [Cert.ReferenceIdeal.Read.val_main_v74_apply, Cert.ReferenceIdeal.Read.val_main_v73_apply]
  have e : Cert.ReferenceIdeal.Read.idx_main_v73 (Cert.ReferenceIdeal.Read.idx_main_v74 (ix2 n o)) = ix1 o :=
    funext fun a => by match a with | ⟨0, _⟩ => rfl
  rw [e]

/-- The weight column read at an edge's row. -/
theorem column_row (X : S1600000.Idx → ℝ) (j : S1600000x64.Idx) :
    column (fun i => ((X i : ℝ) : EReal)) (ix2 (j 0) 0) = ((X (ix1 (j 0)) : ℝ) : EReal) :=
  column_apply _ (j 0)
end

section
variable (x0 x1 : (⟨S100000x64, .f32⟩ : BufTy).Contents (Elt Ideal)) (x2 : (⟨S2x64x64, .f32⟩ : BufTy).Contents (Elt Ideal))
  (x3 : (⟨S64, .f32⟩ : BufTy).Contents (Elt Ideal)) (x4 x5 : (⟨S1600000, .f32⟩ : BufTy).Contents (Elt Ideal))
  (x6 : (⟨S2x1600000, .i32⟩ : BufTy).Contents (Elt Ideal))

/-- The reference's real result, stage by stage, over the shared host functions. -/
theorem ref_re_unfold : Cert.ReferenceIdeal.Read.val_main_v71 (F := Ideal) x0 x1 x2 x3 x4 x5 x6 =
    addf (subf (addf (Host.dotGeneral (F := Ideal) (φ₁ := .f32) (φ₂ := .f32) (DotDims.plain 100000 64 64) none x0 (weight0 x2))
        (Host.dotGeneral (F := Ideal) (φ₁ := .f32) (φ₂ := .f32) (DotDims.plain 100000 64 64) none (segSum x6 (Cert.ReferenceIdeal.Read.val_main_v18 (F := Ideal) x0 x4 x6)) (weight1 x2)))
      (Host.dotGeneral (F := Ideal) (φ₁ := .f32) (φ₂ := .f32) (DotDims.plain 100000 64 64) none (segSum x6 (Cert.ReferenceIdeal.Read.val_main_v33 (F := Ideal) x1 x5 x6)) (weight1 x2)))
      (Cert.ReferenceIdeal.Read.val_main_v70 (F := Ideal) x3) := rfl

/-- The reference's imaginary result, stage by stage, over the shared host functions. -/
theorem ref_im_unfold : Cert.ReferenceIdeal.Read.val_main_v75 (F := Ideal) x0 x1 x2 x3 x4 x5 x6 =
    addf (addf (addf (Host.dotGeneral (F := Ideal) (φ₁ := .f32) (φ₂ := .f32) (DotDims.plain 100000 64 64) none x1 (weight0 x2))
        (Host.dotGeneral (F := Ideal) (φ₁ := .f32) (φ₂ := .f32) (DotDims.plain 100000 64 64) none (segSum x6 (Cert.ReferenceIdeal.Read.val_main_v48 (F := Ideal) x1 x4 x6)) (weight1 x2)))
      (Host.dotGeneral (F := Ideal) (φ₁ := .f32) (φ₂ := .f32) (DotDims.plain 100000 64 64) none (segSum x6 (Cert.ReferenceIdeal.Read.val_main_v63 (F := Ideal) x0 x5 x6)) (weight1 x2)))
      (Cert.ReferenceIdeal.Read.val_main_v74 (F := Ideal) x3) := rfl
end

/-! ## Reading the combinations at an entry (arrays as variables: these are pure unfoldings) -/

theorem combineRe_apply {S : Shape} (a b c d : FVec Ideal S .f32) (i : S.Idx) :
    addf (subf (addf a b) c) d i = ((a i + b i) - c i) + d i := rfl

theorem combineIm_apply {S : Shape} (a b c d : FVec Ideal S .f32) (i : S.Idx) :
    addf (addf (addf a b) c) d i = ((a i + b i) + c i) + d i := rfl

section
variable (x6 : (⟨S2x1600000, .i32⟩ : BufTy).Contents (Elt Ideal))

/-- The plain 100000×64 by 64×64 product at an entry: the sum over the contracted coordinate. -/
theorem dot_apply (A : (⟨S100000x64, .f32⟩ : BufTy).Contents (Elt Ideal)) (B : (⟨S64x64, .f32⟩ : BufTy).Contents (Elt Ideal))
    (n : Fin 100000) (o : Fin 64) :
    Host.dotGeneral (F := Ideal) (φ₁ := .f32) (φ₂ := .f32) (DotDims.plain 100000 64 64) none A B (ix2 n o) = ∑ c : Fin 64, A (ix2 n c) * B (ix2 c o) :=
  StackMember.dotGeneral_plain_apply none A B n o

/-- The same product when the left operand is a per-node sum array. -/
theorem dot_segSum_apply (u : (⟨S1600000x64, .f32⟩ : BufTy).Contents (Elt Ideal)) (B : (⟨S64x64, .f32⟩ : BufTy).Contents (Elt Ideal))
    (n : Fin 100000) (o : Fin 64) :
    Host.dotGeneral (F := Ideal) (φ₁ := .f32) (φ₂ := .f32) (DotDims.plain 100000 64 64) none (segSum x6 u) B (ix2 n o)
      = ∑ c : Fin 64, (0 + ∑ j ∈ landingOf scatter_S100000x64_S1600000x1_S1600000x64_1_0_0_1 (srcIdx x6) (ix2 n c), u j) * B (ix2 c o) :=
  (dot_apply (segSum x6 u) B n o).trans
    (Finset.sum_congr rfl fun c _ => congrArg (· * B (ix2 c o)) (segSum_apply x6 u (ix2 n c)))

/-- The node-wise transform of a per-node sum array at an entry. -/
theorem dense_segSum_apply (x : (⟨S100000x64, .f32⟩ : BufTy).Contents (Elt Ideal)) (u : (⟨S1600000x64, .f32⟩ : BufTy).Contents (Elt Ideal))
    (w0 w1 : (⟨S64x64, .f32⟩ : BufTy).Contents (Elt Ideal)) (b : (⟨S1x64, .f32⟩ : BufTy).Contents (Elt Ideal))
    (n : Fin 100000) (o : Fin 64) :
    Cert.Spec.dense x (segSum x6 u) w0 w1 b (ix2 n o)
      = ((∑ c : Fin 64, x (ix2 n c) * w0 (ix2 c o))
          + ∑ c : Fin 64, (0 + ∑ j ∈ landingOf scatter_S100000x64_S1600000x1_S1600000x64_1_0_0_1 (srcIdx x6) (ix2 n c), u j) * w1 (ix2 c o)) + b (ix2 0 o) :=
  (Cert.Spec.dense_apply x (segSum x6 u) w0 w1 b n o).trans
    (congrArg (fun t => ((∑ c : Fin 64, x (ix2 n c) * w0 (ix2 c o)) + t) + b (ix2 0 o))
      (Finset.sum_congr rfl fun c _ => congrArg (fun t => t * w1 (ix2 c o)) (segSum_apply x6 u (ix2 n c))))
end

section
variable (x0 x1 : (⟨S100000x64, .f32⟩ : BufTy).Contents (Elt Ideal)) (x2 : (⟨S2x64x64, .f32⟩ : BufTy).Contents (Elt Ideal))
  (x3 : (⟨S64, .f32⟩ : BufTy).Contents (Elt Ideal)) (x4 x5 : (⟨S1600000, .f32⟩ : BufTy).Contents (Elt Ideal))
  (x6 : (⟨S2x1600000, .i32⟩ : BufTy).Contents (Elt Ideal))

theorem outRe_def : outRe x0 x1 x2 x3 x4 x5 x6
    = Cert.Spec.dense x0 (segSum x6 (Cert.Spec.msgRe (gathered x0 x6) (gathered x1 x6) (column x4) (column x5)))
        (weight0 x2) (weight1 x2) (biasRow x3) := rfl

theorem outIm_def : outIm x0 x1 x2 x3 x4 x5 x6
    = Cert.Spec.dense x1 (segSum x6 (Cert.Spec.msgIm (gathered x0 x6) (gathered x1 x6) (column x4) (column x5)))
        (weight0 x2) (weight1 x2) (biasRow x3) := rfl
end

section
variable (X0 X1 : S100000x64.Idx → ℝ) (X2 : S2x64x64.Idx → ℝ) (X3 : S64.Idx → ℝ) (X4 X5 : S1600000.Idx → ℝ)
  (x6 : (⟨S2x1600000, .i32⟩ : BufTy).Contents (Elt Ideal))

/-- The reference's real result at a node entry. -/
theorem ref_re_apply (n : Fin 100000) (o : Fin 64) :
    Cert.ReferenceIdeal.Read.val_main_v71 (F := Ideal) (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 (ix2 n o)
      = (((∑ c : Fin 64, ((X0 (ix2 n c) : ℝ) : EReal) * ((w0R X2 (ix2 c o) : ℝ) : EReal))
          + ∑ c : Fin 64, ((0 : EReal) + ∑ j ∈ landingOf scatter_S100000x64_S1600000x1_S1600000x64_1_0_0_1 (srcIdx x6) (ix2 n c),
              ((X4 (ix1 (j 0)) : ℝ) : EReal) * ((X0 (rowOf x6 j) : ℝ) : EReal)) * ((w1R X2 (ix2 c o) : ℝ) : EReal))
        - ∑ c : Fin 64, ((0 : EReal) + ∑ j ∈ landingOf scatter_S100000x64_S1600000x1_S1600000x64_1_0_0_1 (srcIdx x6) (ix2 n c),
              ((X5 (ix1 (j 0)) : ℝ) : EReal) * ((X1 (rowOf x6 j) : ℝ) : EReal)) * ((w1R X2 (ix2 c o) : ℝ) : EReal))
        + ((X3 (ix1 o) : ℝ) : EReal) := by
  rw [ref_re_unfold, ref_v18, ref_v33, weight0_coe, weight1_coe, combineRe_apply, dot_apply, dot_segSum_apply,
    dot_segSum_apply, ref_bias70]

/-- The reference's imaginary result at a node entry. -/
theorem ref_im_apply (n : Fin 100000) (o : Fin 64) :
    Cert.ReferenceIdeal.Read.val_main_v75 (F := Ideal) (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 (ix2 n o)
      = (((∑ c : Fin 64, ((X1 (ix2 n c) : ℝ) : EReal) * ((w0R X2 (ix2 c o) : ℝ) : EReal))
          + ∑ c : Fin 64, ((0 : EReal) + ∑ j ∈ landingOf scatter_S100000x64_S1600000x1_S1600000x64_1_0_0_1 (srcIdx x6) (ix2 n c),
              ((X4 (ix1 (j 0)) : ℝ) : EReal) * ((X1 (rowOf x6 j) : ℝ) : EReal)) * ((w1R X2 (ix2 c o) : ℝ) : EReal))
        + ∑ c : Fin 64, ((0 : EReal) + ∑ j ∈ landingOf scatter_S100000x64_S1600000x1_S1600000x64_1_0_0_1 (srcIdx x6) (ix2 n c),
              ((X5 (ix1 (j 0)) : ℝ) : EReal) * ((X0 (rowOf x6 j) : ℝ) : EReal)) * ((w1R X2 (ix2 c o) : ℝ) : EReal))
        + ((X3 (ix1 o) : ℝ) : EReal) := by
  rw [ref_im_unfold, ref_v48, ref_v63, weight0_coe, weight1_coe, combineIm_apply, dot_apply, dot_segSum_apply,
    dot_segSum_apply, ref_bias74]

/-- The kernel's per-edge real part over real arguments. -/
theorem ker_msgRe :
    Cert.Spec.msgRe (gathered (fun i => ((X0 i : ℝ) : EReal)) x6) (gathered (fun i => ((X1 i : ℝ) : EReal)) x6)
        (column (fun i => ((X4 i : ℝ) : EReal))) (column (fun i => ((X5 i : ℝ) : EReal)))
      = fun j => ((X4 (ix1 (j 0)) : ℝ) : EReal) * ((X0 (rowOf x6 j) : ℝ) : EReal)
          - ((X5 (ix1 (j 0)) : ℝ) : EReal) * ((X1 (rowOf x6 j) : ℝ) : EReal) := by
  funext j
  show column (fun i => ((X4 i : ℝ) : EReal)) (ix2 (j 0) 0) * gathered (fun i => ((X0 i : ℝ) : EReal)) x6 j
      - column (fun i => ((X5 i : ℝ) : EReal)) (ix2 (j 0) 0) * gathered (fun i => ((X1 i : ℝ) : EReal)) x6 j = _
  rw [column_row, column_row, gathered_coe, gathered_coe]

/-- The kernel's per-edge imaginary part over real arguments. -/
theorem ker_msgIm :
    Cert.Spec.msgIm (gathered (fun i => ((X0 i : ℝ) : EReal)) x6) (gathered (fun i => ((X1 i : ℝ) : EReal)) x6)
        (column (fun i => ((X4 i : ℝ) : EReal))) (column (fun i => ((X5 i : ℝ) : EReal)))
      = fun j => ((X4 (ix1 (j 0)) : ℝ) : EReal) * ((X1 (rowOf x6 j) : ℝ) : EReal)
          + ((X5 (ix1 (j 0)) : ℝ) : EReal) * ((X0 (rowOf x6 j) : ℝ) : EReal) := by
  funext j
  show column (fun i => ((X4 i : ℝ) : EReal)) (ix2 (j 0) 0) * gathered (fun i => ((X1 i : ℝ) : EReal)) x6 j
      + column (fun i => ((X5 i : ℝ) : EReal)) (ix2 (j 0) 0) * gathered (fun i => ((X0 i : ℝ) : EReal)) x6 j = _
  rw [column_row, column_row, gathered_coe, gathered_coe]

/-- The kernel's real result at a node entry. -/
theorem ker_re_apply (n : Fin 100000) (o : Fin 64) :
    outRe (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 (ix2 n o)
      = ((∑ c : Fin 64, ((X0 (ix2 n c) : ℝ) : EReal) * ((w0R X2 (ix2 c o) : ℝ) : EReal))
          + ∑ c : Fin 64, ((0 : EReal) + ∑ j ∈ landingOf scatter_S100000x64_S1600000x1_S1600000x64_1_0_0_1 (srcIdx x6) (ix2 n c),
              (((X4 (ix1 (j 0)) : ℝ) : EReal) * ((X0 (rowOf x6 j) : ℝ) : EReal)
                - ((X5 (ix1 (j 0)) : ℝ) : EReal) * ((X1 (rowOf x6 j) : ℝ) : EReal))) * ((w1R X2 (ix2 c o) : ℝ) : EReal))
        + ((X3 (ix1 o) : ℝ) : EReal) := by
  rw [outRe_def, ker_msgRe, weight0_coe, weight1_coe, dense_segSum_apply, biasRow_coe]

/-- The kernel's imaginary result at a node entry. -/
theorem ker_im_apply (n : Fin 100000) (o : Fin 64) :
    outIm (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 (ix2 n o)
      = ((∑ c : Fin 64, ((X1 (ix2 n c) : ℝ) : EReal) * ((w0R X2 (ix2 c o) : ℝ) : EReal))
          + ∑ c : Fin 64, ((0 : EReal) + ∑ j ∈ landingOf scatter_S100000x64_S1600000x1_S1600000x64_1_0_0_1 (srcIdx x6) (ix2 n c),
              (((X4 (ix1 (j 0)) : ℝ) : EReal) * ((X1 (rowOf x6 j) : ℝ) : EReal)
                + ((X5 (ix1 (j 0)) : ℝ) : EReal) * ((X0 (rowOf x6 j) : ℝ) : EReal))) * ((w1R X2 (ix2 c o) : ℝ) : EReal))
        + ((X3 (ix1 o) : ℝ) : EReal) := by
  rw [outIm_def, ker_msgIm, weight0_coe, weight1_coe, dense_segSum_apply, biasRow_coe]

/-- THE REAL RESULT: over real arguments the reference's term is the kernel's. -/
theorem re_eq : Cert.ReferenceIdeal.Read.val_main_v71 (F := Ideal) (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 = outRe (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 := by
  funext i
  obtain ⟨n, o, rfl⟩ : ∃ (n : Fin 100000) (o : Fin 64), i = ix2 n o := ⟨i 0, i 1, eq_ix2 i⟩
  rw [ref_re_apply, ker_re_apply]
  exact Cert.RealSums.re_law (fun c => landingOf scatter_S100000x64_S1600000x1_S1600000x64_1_0_0_1 (srcIdx x6) (ix2 n c)) (fun c => X0 (ix2 n c))
    (fun c => w0R X2 (ix2 c o)) (fun c => w1R X2 (ix2 c o)) (fun j => X4 (ix1 (j 0))) (fun j => X0 (rowOf x6 j))
    (fun j => X5 (ix1 (j 0))) (fun j => X1 (rowOf x6 j)) (X3 (ix1 o))

/-- THE IMAGINARY RESULT: over real arguments the reference's term is the kernel's. -/
theorem im_eq : Cert.ReferenceIdeal.Read.val_main_v75 (F := Ideal) (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 = outIm (fun i => ((X0 i : ℝ) : EReal)) (fun i => ((X1 i : ℝ) : EReal)) (fun i => ((X2 i : ℝ) : EReal)) (fun i => ((X3 i : ℝ) : EReal)) (fun i => ((X4 i : ℝ) : EReal)) (fun i => ((X5 i : ℝ) : EReal)) x6 := by
  funext i
  obtain ⟨n, o, rfl⟩ : ∃ (n : Fin 100000) (o : Fin 64), i = ix2 n o := ⟨i 0, i 1, eq_ix2 i⟩
  rw [ref_im_apply, ker_im_apply]
  exact Cert.RealSums.im_law (fun c => landingOf scatter_S100000x64_S1600000x1_S1600000x64_1_0_0_1 (srcIdx x6) (ix2 n c)) (fun c => X1 (ix2 n c))
    (fun c => w0R X2 (ix2 c o)) (fun c => w1R X2 (ix2 c o)) (fun j => X4 (ix1 (j 0))) (fun j => X1 (rowOf x6 j))
    (fun j => X5 (ix1 (j 0))) (fun j => X0 (rowOf x6 j)) (X3 (ix1 o))
end

section
variable (x0 x1 : (⟨S100000x64, .f32⟩ : BufTy).Contents (Elt Ideal)) (x2 : (⟨S2x64x64, .f32⟩ : BufTy).Contents (Elt Ideal)) (x3 : (⟨S64, .f32⟩ : BufTy).Contents (Elt Ideal))
  (x4 x5 : (⟨S1600000, .f32⟩ : BufTy).Contents (Elt Ideal)) (x6 : (⟨S2x1600000, .i32⟩ : BufTy).Contents (Elt Ideal))
  (h0 : ∃ X : S100000x64.Idx → ℝ, x0 = fun i => ((X i : ℝ) : EReal)) (h1 : ∃ X : S100000x64.Idx → ℝ, x1 = fun i => ((X i : ℝ) : EReal))
  (h2 : ∃ X : S2x64x64.Idx → ℝ, x2 = fun i => ((X i : ℝ) : EReal)) (h3 : ∃ X : S64.Idx → ℝ, x3 = fun i => ((X i : ℝ) : EReal))
  (h4 : ∃ X : S1600000.Idx → ℝ, x4 = fun i => ((X i : ℝ) : EReal)) (h5 : ∃ X : S1600000.Idx → ℝ, x5 = fun i => ((X i : ℝ) : EReal))

include h0 h1 h2 h3 h4 h5 in
/-- When every float argument holds real numbers the reference's real result is the kernel's. -/
theorem re_of_reals : Cert.ReferenceIdeal.Read.val_main_v71 (F := Ideal) x0 x1 x2 x3 x4 x5 x6 = outRe x0 x1 x2 x3 x4 x5 x6 := by
  obtain ⟨X0, rfl⟩ := h0
  obtain ⟨X1, rfl⟩ := h1
  obtain ⟨X2, rfl⟩ := h2
  obtain ⟨X3, rfl⟩ := h3
  obtain ⟨X4, rfl⟩ := h4
  obtain ⟨X5, rfl⟩ := h5
  exact re_eq X0 X1 X2 X3 X4 X5 x6

include h0 h1 h2 h3 h4 h5 in
/-- When every float argument holds real numbers the reference's imaginary result is the kernel's. -/
theorem im_of_reals : Cert.ReferenceIdeal.Read.val_main_v75 (F := Ideal) x0 x1 x2 x3 x4 x5 x6 = outIm x0 x1 x2 x3 x4 x5 x6 := by
  obtain ⟨X0, rfl⟩ := h0
  obtain ⟨X1, rfl⟩ := h1
  obtain ⟨X2, rfl⟩ := h2
  obtain ⟨X3, rfl⟩ := h3
  obtain ⟨X4, rfl⟩ := h4
  obtain ⟨X5, rfl⟩ := h5
  exact im_eq X0 X1 X2 X3 X4 X5 x6
end

end Cert.Bridge

end
-- ==== Proof.Finite.lean ====
/-
  Finiteness of the float inputs. The precondition is the conjunction, over the six float argument
  arrays, of "every entry x satisfies |x| < +∞", each conjunct being an and-reduction over all axes of the
  elementwise comparison of |x| with the splat of the f32 pattern 0x7F800000. With floats read as extended
  reals, that pattern is ⊤ and |x| is max x (-x), so the comparison holding at an entry says the entry is
  neither ⊤ nor ⊥: it is a real number. Hence each of the six arrays is the coercion of a real-valued array.
-/
import proofs.«172383_j26998164423390_1_alg».proof.Proof.Gen.Pre_finite_inputs
import Idealize.ShloMosaic.PureOps.Ideal
import Idealize.ShloMosaic.Lib.ReduceAll
import Idealize.ShloMosaic.Lib.ValueIdx
import Mathlib.Data.EReal.Basic

open Idealize.ShloMosaic

namespace Cert.Finite

/-- The rank-0 shape has exactly one index (there is no axis to pick a coordinate on). -/
instance : Subsingleton Cert.Pre_finite_inputs.S_.Idx := ⟨fun a b => funext fun d => d.elim0⟩

/-- The f32 pattern with exponent field all ones, zero significand and sign bit clear denotes +∞. -/
theorem inf_pattern : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- One entry: if |a| = max a (-a) is strictly below +∞ then a is a real number. Both a < ⊤ and -a < ⊤
    hold; the first excludes a = ⊤, the second (as -⊥ = ⊤) excludes a = ⊥. -/
theorem real_of_abs_lt_inf (a : EReal)
    (h : Ideal.cmp .olt (max a (-a)) (Ideal.ofBits .f32 0x7F800000#32) = 1#1) : ∃ r : ℝ, a = (r : EReal) := by
  rw [inf_pattern] at h
  have h' : a < ⊤ ∧ -a < ⊤ := by
    simpa only [Ideal.cmp, ofBool_eq_one, decide_eq_true_eq, max_lt_iff] using h
  induction a using EReal.rec with
  | bot => exact absurd h'.2 (by simp)
  | coe r => exact ⟨r, rfl⟩
  | top => exact absurd h'.1 (by simp)

/-- A whole array of any shape S: if the and-reduction over all axes (into a result with a single index) of
    the entrywise test |x| < +∞ is 1, then every entry passed the test, so every entry is real; choosing the
    real behind each entry gives a real-valued array whose coercion is x. -/
theorem reals_of_all_lt_inf {S T U V : Shape} [Subsingleton T.Idx] {axes : List (Fin S.rank)}
    {dims : Fin U.rank → Fin S.rank} (x : FVec Ideal S .f32) (hb : U.BroadcastsInDim S dims)
    (hr : S.ReducesTo axes T) (init : IVec V 1) (hv : 0 < V.numel) (j : T.Idx)
    (e : Host.reduce IntOp.andi
          (cmpf .olt (Host.absf x) (broadcastInDim S dims hb (constant U .f32 0x7F800000#32))) init hr hv j = 1#1) :
    ∃ X : S.Idx → ℝ, x = fun i => ((X i : ℝ) : EReal) := by
  have hx : ∀ i, ∃ r : ℝ, x i = (r : EReal) := fun i =>
    real_of_abs_lt_inf (x i) (Host.reduce_andi_all _ init hr hv j e i)
  exact ⟨fun i => Classical.choose (hx i), funext fun i => Classical.choose_spec (hx i)⟩

open Cert.Pre_finite_inputs in
/-- The precondition gives real witnesses for all six float arrays: read the rank-0 result at its one
    index, split the five-fold "and" into its six conjuncts (the last joined is the sixth array's), and apply
    the array lemma to each. The integer argument x6 takes no part. -/
theorem reals_of_pre (x0 x1 : FVec Ideal S100000x64 .f32) (x2 : FVec Ideal S2x64x64 .f32) (x3 : FVec Ideal S64 .f32)
    (x4 x5 : FVec Ideal S1600000 .f32) (x6 : IVec S2x1600000 32)
    (h : Cert.Pre_finite_inputs.fn (F := Ideal) x0 x1 x2 x3 x4 x5 x6 = fun _ => 1#1) :
    (∃ X0 : S100000x64.Idx → ℝ, x0 = fun i => ((X0 i : ℝ) : EReal)) ∧ (∃ X1 : S100000x64.Idx → ℝ, x1 = fun i => ((X1 i : ℝ) : EReal))
    ∧ (∃ X2 : S2x64x64.Idx → ℝ, x2 = fun i => ((X2 i : ℝ) : EReal)) ∧ (∃ X3 : S64.Idx → ℝ, x3 = fun i => ((X3 i : ℝ) : EReal))
    ∧ (∃ X4 : S1600000.Idx → ℝ, x4 = fun i => ((X4 i : ℝ) : EReal)) ∧ (∃ X5 : S1600000.Idx → ℝ, x5 = fun i => ((X5 i : ℝ) : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all_lt_inf x0 _ _ _ _ _ e0, reals_of_all_lt_inf x1 _ _ _ _ _ e1,
    reals_of_all_lt_inf x2 _ _ _ _ _ e2, reals_of_all_lt_inf x3 _ _ _ _ _ e3,
    reals_of_all_lt_inf x4 _ _ _ _ _ e4, reals_of_all_lt_inf x5 _ _ _ _ _ e5⟩

end Cert.Finite
-- ==== Proof.lean ====
/-
  A complex graph convolution: every edge e carries a complex weight (nr e, ni e) and gathers the complex feature row
  (xr, xi) of its neighbour; the per-edge complex products are summed into the edge's source node; the result is
  x·W0 + agg·W1 + b on the real and on the imaginary side. The kernel program multiplies edge by edge (real part
  nr·xr − ni·xi, imaginary part nr·xi + ni·xr), sums each part once per node, and applies the two weight matrices in a
  second region. The reference sums the four real products separately, applies W1 to each sum, and combines afterwards.

  The three frames: the two kernel programs' are the launch over their four segments; the reference's is its run with
  the results dropped. No rewrite separates the kernel from its idealization. The two idealized programs end with equal
  results because, at a node entry, both are finite sums of real numbers — every float argument is finite, the gathered
  rows are entries of the node tables, the scattered sums range over the same edges — and the sum and the product with a
  fixed weight are linear over the real numbers.
-/
import proofs.«172383_j26998164423390_1_alg».proof.Defs
import proofs.«172383_j26998164423390_1_alg».proof.Proof.Gen.Kernel
import proofs.«172383_j26998164423390_1_alg».proof.Proof.Gen.Kernel.Skeleton
import proofs.«172383_j26998164423390_1_alg».proof.Proof.Gen.Kernel.Launch
import proofs.«172383_j26998164423390_1_alg».proof.Proof.Gen.Kernel.Points
import proofs.«172383_j26998164423390_1_alg».proof.Proof.Gen.Kernel.Frame
import proofs.«172383_j26998164423390_1_alg».proof.Proof.Gen.KernelIdeal
import proofs.«172383_j26998164423390_1_alg».proof.Proof.Gen.KernelIdeal.Skeleton
import proofs.«172383_j26998164423390_1_alg».proof.Proof.Gen.KernelIdeal.Launch
import proofs.«172383_j26998164423390_1_alg».proof.Proof.Gen.KernelIdeal.Points
import proofs.«172383_j26998164423390_1_alg».proof.Proof.Gen.KernelIdeal.Frame
import proofs.«172383_j26998164423390_1_alg».proof.Proof.Gen.ReferenceIdeal
import proofs.«172383_j26998164423390_1_alg».proof.Proof.Gen.ReferenceIdeal.Run
import proofs.«172383_j26998164423390_1_alg».proof.Proof.Gen.ReferenceIdeal.Read
import proofs.«172383_j26998164423390_1_alg».proof.Proof.Gen.Pre_finite_inputs
import proofs.«172383_j26998164423390_1_alg».proof.Proof.KernelValue
import proofs.«172383_j26998164423390_1_alg».proof.Proof.Bridge
import proofs.«172383_j26998164423390_1_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the kernel's two result terms: the kernel by its run, the reference because over
    finite float arguments its terms are the kernel's. -/
theorem algebraic : Cert.algebraic_KernelIdeal_ReferenceIdeal := by
  intro m ρ m' ρ' hpre hagree
  refine ⟨fun c => Cert.KernelIdeal.Term.outRe (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Term.outIm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun r h c => ?_) (Cert.ReferenceIdeal.Value.run (F := Ideal) m' ρ')
  obtain ⟨h71, h75, hargs⟩ := h c
  obtain ⟨a0, a1, a2, a3, a4, a5, a6⟩ := hagree c
  obtain ⟨r0, r1, r2, r3, r4, r5⟩ := Cert.Finite.reals_of_pre _ _ _ _ _ _ _ (hpre c)
  refine ⟨?_, ?_, hargs⟩
  · refine h71.trans ?_
    rw [a0, a1, a2, a3, a4, a5, a6]
    exact (Cert.ReferenceIdeal.Read.val_main_v71_eq _ _ _ _ _ _ _).trans (Cert.Bridge.re_of_reals _ _ _ _ _ _ _ r0 r1 r2 r3 r4 r5)
  · refine h75.trans ?_
    rw [a0, a1, a2, a3, a4, a5, a6]
    exact (Cert.ReferenceIdeal.Read.val_main_v75_eq _ _ _ _ _ _ _).trans (Cert.Bridge.im_of_reals _ _ _ _ _ _ _ r0 r1 r2 r3 r4 r5)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
